-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S128 .f32) (main_arg7 : FVec F S256x128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x256 .f32) (main_arg3 : FVec F S256 .f32) (main_arg4 : FVec F S128x256 .f32) (main_arg5 : FVec F S256x128 .f32) (main_arg6 : FVec F S128 .f32) (main_arg7 : FVec F S256x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S2000x128 : Shape := ⟨2, ![2000, 128]⟩
abbrev S2000x1 : Shape := ⟨2, ![2000, 1]⟩
abbrev S2000x256 : Shape := ⟨2, ![2000, 256]⟩
abbrev S1x128 : Shape := ⟨2, ![1, 128]⟩

abbrev nBuf : Space → Nat
  | .hbm => 90
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x128, .bf16⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .bf16⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S1x256, .f32⟩
  | .hbm, ⟨41, _⟩ => ⟨S50000x128, .bf16⟩
  | .hbm, ⟨42, _⟩ => ⟨S50000x128, .bf16⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .bf16⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S1x128, .f32⟩
  | .hbm, ⟨58, _⟩ => ⟨S50000x128, .bf16⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .bf16⟩
  | .hbm, ⟨68, _⟩ => ⟨S800000x128, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .bf16⟩
  | .hbm, ⟨78, _⟩ => ⟨S800000x128, .f32⟩
  | .hbm, ⟨79, _⟩ => ⟨S800000x128, .f32⟩
  | .hbm, ⟨80, _⟩ => ⟨S_, .f32⟩
  | .hbm, ⟨81, _⟩ => ⟨S800000, .f32⟩
  | .hbm, ⟨82, _⟩ => ⟨S800000, .f32⟩
  | .hbm, ⟨83, _⟩ => ⟨S800000, .f32⟩
  | .hbm, ⟨84, _⟩ => ⟨S_, .f32⟩
  | .hbm, ⟨85, _⟩ => ⟨S800000, .f32⟩
  | .hbm, ⟨86, _⟩ => ⟨S800000, .f32⟩
  | .hbm, ⟨87, _⟩ => ⟨S_, .f32⟩
  | .hbm, ⟨88, _⟩ => ⟨S800000, .f32⟩
  | .hbm, ⟨89, _⟩ => ⟨S800000, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x256, .f32⟩
  | .local _ .vmem, ⟨7, _⟩ => ⟨S1x256, .f32⟩
  | .local _ .vmem, ⟨8, _⟩ => ⟨S128x256, .f32⟩
  | .local _ .vmem, ⟨9, _⟩ => ⟨S256x128, .f32⟩
  | .local _ .vmem, ⟨10, _⟩ => ⟨S256x128, .f32⟩
  | .local _ .vmem, ⟨11, _⟩ => ⟨S2000x128, .bf16⟩
  | .local _ .vmem, ⟨12, _⟩ => ⟨S2000x128, .bf16⟩
  | .local _ .vmem, ⟨13, _⟩ => ⟨S2000x128, .bf16⟩
  | .local _ .vmem, ⟨14, _⟩ => ⟨S2000x128, .bf16⟩
  | .local _ .vmem, ⟨15, _⟩ => ⟨S2000x128, .f32⟩
  | .local _ .vmem, ⟨16, _⟩ => ⟨S2000x128, .f32⟩
  | .local _ .vmem, ⟨17, _⟩ => ⟨S2000x1, .f32⟩
  | .local _ .vmem, ⟨18, _⟩ => ⟨S2000x1, .f32⟩
  | .local _ .vmem, ⟨19, _⟩ => ⟨S2000x128, .bf16⟩
  | .local _ .vmem, ⟨20, _⟩ => ⟨S2000x128, .bf16⟩
  | .local _ .vmem, ⟨21, _⟩ => ⟨S1x128, .f32⟩
  | .local _ .vmem, ⟨22, _⟩ => ⟨S2000x128, .bf16⟩
  | .local _ .vmem, ⟨23, _⟩ => ⟨S2000x128, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_v40 : Ref sig .tc := ⟨.hbm, 60, rfl⟩
abbrev main_v41 : Ref sig .tc := ⟨.hbm, 61, rfl⟩
abbrev main_c_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_c_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_v61 : Ref sig .tc := ⟨.hbm, 86, rfl⟩
abbrev main_cst_14 : Ref sig .tc := ⟨.hbm, 87, rfl⟩
abbrev main_v62 : Ref sig .tc := ⟨.hbm, 88, rfl⟩
abbrev main_v63 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  bcast_S_S50000x128 : S_.BroadcastsInDim S50000x128 (![] : Fin 0 → Fin S50000x128.rank)
  shapeCasts_S256_S1x256 : S256.ShapeCasts S1x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  inb_S128x256_S128x256_0_0 : ∀ a, (![0, 0] : Fin 2 → Nat) a + S128x256.size a ≤ S128x256.size a
  h_S128x256 : 0 < S128x256.numel
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  packedbf16_S2000x128_S2000x128_0_0 : (Rect.unit (s := S2000x128) ![0, 0] S2000x128.size inb_S2000x128_S2000x128_0_0).PackedRows (EltTy.packing .bf16)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reducesTo_S800000x128_S800000_d1 : S800000x128.ReducesTo [1] S800000
  h_S_ : 0 < S_.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .bf16 = 32 ∨ (Rect.block (s := S50000x128) S2000x128.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S50000x128.size a
  hwx0_9 : ∀ i : grid0.Coords, EltTy.bits .bf16 = 32 ∨ (Rect.block (s := S50000x128) S2000x128.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .bf16 = 32 ∨ (Rect.block (s := S50000x128) S2000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .bf16 = 32 ∨ (Rect.block (s := S50000x128) S2000x128.size (cc1_transform_4 i) (hinb1_4 i)).WholeWords (EltTy.packing .bf16)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26_0) S2000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v26_1) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v37) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26_1) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 106
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x256, .f32⟩
  | .hbm, ⟨55, _⟩ => ⟨S_, .f32⟩
  | .hbm, ⟨56, _⟩ => ⟨S50000x256, .f32⟩
  | .hbm, ⟨57, _⟩ => ⟨S800000x1, .i32⟩
  | .hbm, ⟨58, _⟩ => ⟨S50000x256, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x256, .f32⟩
  | .hbm, ⟨70, _⟩ => ⟨S50000x256, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x128, .f32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000x128, .f32⟩
  | .hbm, ⟨95, _⟩ => ⟨S800000x128, .f32⟩
  | .hbm, ⟨96, _⟩ => ⟨S_, .f32⟩
  | .hbm, ⟨97, _⟩ => ⟨S800000, .f32⟩
  | .hbm, ⟨98, _⟩ => ⟨S800000, .f32⟩
  | .hbm, ⟨99, _⟩ => ⟨S800000, .f32⟩
  | .hbm, ⟨100, _⟩ => ⟨S_, .f32⟩
  | .hbm, ⟨101, _⟩ => ⟨S800000, .f32⟩
  | .hbm, ⟨102, _⟩ => ⟨S800000, .f32⟩
  | .hbm, ⟨103, _⟩ => ⟨S_, .f32⟩
  | .hbm, ⟨104, _⟩ => ⟨S800000, .f32⟩
  | .hbm, ⟨105, _⟩ => ⟨S800000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_14 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_v74 : Ref sig .tc := ⟨.hbm, 102, rfl⟩
abbrev main_cst_16 : Ref sig .tc := ⟨.hbm, 103, rfl⟩
abbrev main_v75 : Ref sig .tc := ⟨.hbm, 104, rfl⟩
abbrev main_v76 : Ref sig .tc := ⟨.hbm, 105, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S800000x128_S800000_d1 : S800000x128.ReducesTo [1] S800000
  h_S_ : 0 < S_.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.RefFrame.lean ====
/-
  The reference is a straight-line host program: it terminates without a fault and writes only the buffers of
  its own intermediate values, so every argument array ends as it began.  This is its generated run with the
  result's value dropped.
-/
import proofs.«407070_j89043261981499_3_alg».proof.Defs
import proofs.«407070_j89043261981499_3_alg».proof.Proof.Gen.ReferenceIdeal
import proofs.«407070_j89043261981499_3_alg».proof.Proof.Gen.Pre_finite_inputs
import proofs.«407070_j89043261981499_3_alg».proof.Proof.Gen.ReferenceIdeal.Run
import proofs.«407070_j89043261981499_3_alg».proof.Proof.Gen.ReferenceIdeal.Read

noncomputable section

namespace Cert.Proof.RefFrame

open Idealize.ShloMosaic Idealize.SL.Sem

/-- Every weakly fair execution of the reference ends with the argument arrays unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.Spec.lean ====
/-
  The two layers of the network as functions of coordinates on the extended reals.

  A node `n` averages its in-neighbours' features: `msg n i` is the sum over the edges that end at `n`,
  `inv n` the reciprocal of the number of such edges (floored at one).  Layer one is
  `hid n k = max (Σ_i (msg n i · inv n) · w1l i k + b1 k + Σ_i x n i · w1r i k) 0`; a projection of the hidden
  layer is `proj h w n q = Σ_k h n k · w k q`; layer two, with both of its matrix products already applied
  before the second neighbour sum, is `msg2 n q · inv n + b2 q + hr n q`.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The hidden layer at node `n`, channel `k`: the rectified sum of the averaged neighbour features through
    `w1l`, the bias, and the node's own features through `w1r`. -/
def hid (msg : Fin 50000 → Fin 128 → EReal) (inv : Fin 50000 → EReal) (x : Fin 50000 → Fin 128 → EReal)
    (w1l : Fin 128 → Fin 256 → EReal) (b1 : Fin 256 → EReal) (w1r : Fin 128 → Fin 256 → EReal)
    (n : Fin 50000) (k : Fin 256) : EReal :=
  max (((∑ i : Fin 128, (msg n i * inv n) * w1l i k) + b1 k) + ∑ i : Fin 128, x n i * w1r i k) 0

/-- A hidden row through a 256 × 128 matrix. -/
def proj (h : Fin 50000 → Fin 256 → EReal) (w : Fin 256 → Fin 128 → EReal) (n : Fin 50000) (q : Fin 128) : EReal :=
  ∑ k : Fin 256, h n k * w k q

/-- Layer two once both products are applied: the averaged neighbour sum, the bias, the node's own term. -/
def out2 (msg2 : Fin 50000 → Fin 128 → EReal) (inv : Fin 50000 → EReal) (hr : Fin 50000 → Fin 128 → EReal)
    (b2 : Fin 128 → EReal) (n : Fin 50000) (q : Fin 128) : EReal :=
  (msg2 n q * inv n + b2 q) + hr n q

end Cert.Sage

end
-- ==== Proof.Terms.lean ====
/-
  The kernel's value, written over the stages it shares with the reference.

  Both programs take the neighbour sum of an [50000, 128] array `A` the same way: `A`'s rows gathered at the
  source column, scatter-added at the destination column.  That operator is the reference's first neighbour-sum
  stage read as a function of the array it sums, `nbr x1 A`.  Both floor the degree at one; the kernel keeps the
  reciprocal `inv x1 n`.  Both finish with the same decode of the node embeddings `Z`: the rows of `Z` at the
  two ends of each edge, their inner product, and the logistic function of it.
-/
import proofs.«407070_j89043261981499_3_alg».proof.Proof.Gen.ReferenceIdeal.Run
import proofs.«407070_j89043261981499_3_alg».proof.Proof.Gen.ReferenceIdeal.Read
import proofs.«407070_j89043261981499_3_alg».proof.Proof.Spec
import Idealize.ShloMosaic.Lib.ValueIdx

noncomputable section

namespace Cert.Sage

open Cert.ReferenceIdeal Cert.ReferenceIdeal.Gen Cert.ReferenceIdeal.Read Idealize.ShloMosaic Idealize.ShloMosaic.ValueIdx

variable (x0 : (⟨S50000x128, .f32⟩ : BufTy).Contents (Elt Ideal)) (x1 : (⟨S2x800000, .i32⟩ : BufTy).Contents (Elt Ideal))
  (x2 : (⟨S128x256, .f32⟩ : BufTy).Contents (Elt Ideal)) (x3 : (⟨S256, .f32⟩ : BufTy).Contents (Elt Ideal))
  (x4 : (⟨S128x256, .f32⟩ : BufTy).Contents (Elt Ideal)) (x5 : (⟨S256x128, .f32⟩ : BufTy).Contents (Elt Ideal))
  (x6 : (⟨S128, .f32⟩ : BufTy).Contents (Elt Ideal)) (x7 : (⟨S256x128, .f32⟩ : BufTy).Contents (Elt Ideal))

/-- The neighbour sum of the rows of an [50000, 128] array over the edge list `x1`. -/
abbrev nbr (A : (⟨S50000x128, .f32⟩ : BufTy).Contents (Elt Ideal)) : (⟨S50000x128, .f32⟩ : BufTy).Contents (Elt Ideal) :=
  val_main_v13 (F := Ideal) A x1

/-- The reciprocal of node `n`'s degree floored at one. -/
def inv (n : Fin 50000) : EReal := Ideal.div 1 (val_main_v19 (F := Ideal) x1 (ix1 n))

/-- The kernel's hidden layer. -/
def hidK : Fin 50000 → Fin 256 → EReal :=
  hid (fun n j => nbr x1 x0 (ix2 n j)) (inv x1) (fun n j => x0 (ix2 n j)) (fun j k => x2 (ix2 j k)) (fun k => x3 (ix1 k))
    (fun j k => x4 (ix2 j k))

/-- The hidden layer through `w2_l`, as an array. -/
def hwK : (⟨S50000x128, .f32⟩ : BufTy).Contents (Elt Ideal) :=
  fun i => proj (hidK x0 x1 x2 x3 x4) (fun k q => x5 (ix2 k q)) (i 0) (i 1)

/-- The hidden layer through `w2_r`, as an array. -/
def hrK : (⟨S50000x128, .f32⟩ : BufTy).Contents (Elt Ideal) :=
  fun i => proj (hidK x0 x1 x2 x3 x4) (fun k q => x7 (ix2 k q)) (i 0) (i 1)

/-- The kernel's node embeddings. -/
def zK : (⟨S50000x128, .f32⟩ : BufTy).Contents (Elt Ideal) :=
  fun i => out2 (fun n q => nbr x1 (hwK x0 x1 x2 x3 x4 x5) (ix2 n q)) (inv x1) (fun n q => hrK x0 x1 x2 x3 x4 x7 (ix2 n q))
    (fun q => x6 (ix1 q)) (i 0) (i 1)

/-- The link decode both programs end with, as a function of the node embeddings. -/
def decode (Z : (⟨S50000x128, .f32⟩ : BufTy).Contents (Elt Ideal)) : (⟨S800000, .f32⟩ : BufTy).Contents (Elt Ideal) :=
  Host.divf (F := Ideal) (val_main_v75 (F := Ideal))
    (addf (F := Ideal) (val_main_v73 (F := Ideal))
      (Host.exp (F := Ideal) (Host.negf (F := Ideal)
        (Host.reduceAdd (F := Ideal)
          (mulf (F := Ideal) (φ := .f32) (Host.gather gather_S50000x128_S800000x1_S800000x128_1_0_n_n_0_1_1128 Z (val_main_v60 (F := Ideal) x1))
            (Host.gather gather_S50000x128_S800000x1_S800000x128_1_0_n_n_0_1_1128 Z (val_main_v67 (F := Ideal) x1)))
          (val_main_cst_14 (F := Ideal)) reducesTo_S800000x128_S800000_d1 h_S_))))

/-- The reference's result is the decode of its node embeddings. -/
theorem ref_result :
    val_main_v76 (F := Ideal) x0 x1 x2 x3 x4 x5 x6 x7 = decode x1 (val_main_v54 (F := Ideal) x0 x1 x2 x3 x4 x5 x6 x7) := by
  rfl

end Cert.Sage

end
-- ==== Proof.Algebra.lean ====
/-
  The two laws that join the programs, on the extended reals.

  Dividing by a real `d ≥ 1` is multiplying by `1 / d`.  And a neighbour sum commutes with a matrix product
  when every entry is a real number: `(Σ_e Σ_k h e k · w k) · (1/d) = Σ_k ((Σ_e h e k) / d) · w k`.  The second
  needs finiteness (distributivity fails at the infinities), so the entries are asked to be reals.
-/
import Idealize.ShloMosaic.PureOps.Ideal
import Idealize.ShloMosaic.PureOps.Ideal.Laws

noncomputable section

namespace Cert.Sage

open Idealize.ShloMosaic

/-- An extended real that is a real number. -/
def IsR (x : EReal) : Prop := ∃ r : ℝ, x = (r : EReal)

theorem IsR.zero : IsR 0 := ⟨0, EReal.coe_zero.symm⟩

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.mul {x y : EReal} (hx : IsR x) (hy : IsR y) : IsR (x * y) := by
  obtain ⟨a, rfl⟩ := hx
  obtain ⟨b, rfl⟩ := hy
  exact ⟨a * b, (EReal.coe_mul a b).symm⟩

theorem IsR.max {x y : EReal} (hx : IsR x) (hy : IsR y) : IsR (max x y) := by
  obtain ⟨a, rfl⟩ := hx
  obtain ⟨b, rfl⟩ := hy
  -- the larger of two reals is one of them
  rcases le_total a b with hab | hba
  · exact ⟨b, max_eq_right (EReal.coe_le_coe_iff.2 hab)⟩
  · exact ⟨a, max_eq_left (EReal.coe_le_coe_iff.2 hba)⟩

/-- The embedding of the reals carries a finite sum to the finite sum of the embedded terms. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsR.sum {ι : Type*} (s : Finset ι) (f : ι → EReal) (h : ∀ i ∈ s, IsR (f i)) : IsR (∑ i ∈ s, f i) := by
  classical
  induction s using Finset.induction_on with
  | empty => simpa using IsR.zero
  | insert a s ha ih =>
    rw [Finset.sum_insert ha]
    exact IsR.add (h a (Finset.mem_insert_self a s)) (ih fun i hi => h i (Finset.mem_insert_of_mem hi))

/-- The single-precision pattern of one denotes one. -/
theorem ofBits_one_f32 : Ideal.ofBits .f32 0x3F800000#32 = 1 := by
  -- sign 0, exponent field 127 (the bias), fraction 0: the value is 2^23 · 2^(-23)
  simp [Ideal.ofBits, Ideal.ieee, -EReal.coe_mul]; norm_num

/-- A count of edges floored at one is a real number at least one. -/
theorem count_max_one {ι : Type*} (s : Finset ι) : ∃ d : ℝ, 1 ≤ d ∧ max (0 + ∑ _e ∈ s, (1 : EReal)) 1 = (d : EReal) := by
  -- the sum of ones over s is the cardinality of s, a natural number, hence a real
  have hsum : (∑ _e ∈ s, (1 : EReal)) = ((s.card : ℝ) : EReal) := by
    rw [Finset.sum_const, nsmul_one, EReal.coe_natCast]
  rw [zero_add, hsum]
  rcases le_total (s.card : ℝ) 1 with hc | hc
  · exact ⟨1, le_refl 1, by rw [← EReal.coe_one]; exact max_eq_right (EReal.coe_le_coe_iff.2 hc)⟩
  · exact ⟨(s.card : ℝ), hc, by rw [← EReal.coe_one]; exact max_eq_left (EReal.coe_le_coe_iff.2 hc)⟩

/-- The reciprocal of a real at least one is a real. -/
theorem div_one_isR {d : ℝ} (hd : 1 ≤ d) : IsR (Ideal.div 1 (d : EReal)) := by
  have hd0 : d ≠ 0 := (lt_of_lt_of_le one_pos hd).ne'
  rw [Ideal.div_coe hd0, one_mul]
  exact ⟨1 / d, rfl⟩

/-- Dividing by a real at least one is multiplying by its reciprocal, for every extended real. -/
theorem div_eq_mul_div_one {d : ℝ} (hd : 1 ≤ d) (x : EReal) : Ideal.div x (d : EReal) = x * Ideal.div 1 (d : EReal) := by
  have hd0 : d ≠ 0 := (lt_of_lt_of_le one_pos hd).ne'
  rw [Ideal.div_coe hd0, Ideal.div_coe hd0, one_mul]

/-- The neighbour sum of projected rows, averaged, is the projection of the averaged neighbour sum. -/
theorem sum_rows_mul_inv {E K : Type*} [Fintype K] (s : Finset E) (h : E → K → EReal) (w : K → EReal) {d : ℝ} (hd : 1 ≤ d)
    (hh : ∀ e k, IsR (h e k)) (hw : ∀ k, IsR (w k)) :
    (∑ e ∈ s, ∑ k, h e k * w k) * Ideal.div 1 (d : EReal) = ∑ k, Ideal.div (∑ e ∈ s, h e k) (d : EReal) * w k := by
  have hd0 : d ≠ 0 := (lt_of_lt_of_le one_pos hd).ne'
  -- name the real entries
  choose hr hhr using hh
  choose wr hwr using hw
  -- both sides are embeddings of real numbers
  simp only [hhr, hwr, Ideal.div_coe hd0, one_mul]
  simp only [← EReal.coe_mul, ← coe_sum]
  rw [EReal.coe_eq_coe_iff]
  -- in the reals: exchange the two sums, then distribute in each column
  rw [Finset.sum_comm, Finset.sum_mul]
  refine Finset.sum_congr rfl fun k _ => ?_
  rw [← Finset.sum_mul]
  ring

end Cert.Sage

end
-- ==== Proof.Region0Value.lean ====
/-
  What the first kernel leaves in its two output arrays, as whole-array functions of the arrays it finds.

  The grid has 25 points; point `t` reads rows `2000 t … 2000 t + 1999` of the per-node arrays and all of the
  four weight matrices and the bias, and writes the same rows of both outputs.  Inside a block, row `p` of the
  hidden layer is `max (Σ_i (msg p i · inv p) · w1l i k + b1 k + Σ_i x p i · w1r i k) 0` and the two outputs are that
  row through `w2l` and through `w2r`.  The blocks tile the arrays, so each output ends holding the projection
  of the hidden layer, row by row.
-/
import proofs.«407070_j89043261981499_3_alg».proof.Proof.Gen.KernelIdeal.Frame
import proofs.«407070_j89043261981499_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The hidden layer as the first kernel computes it from the arrays it finds. -/
abbrev hidOf (c : Dev nD) : Fin 50000 → Fin 256 → EReal :=
  Cert.Sage.hid (fun n j => V c main_v24 (ix2 n j)) (fun n => V c main_v12 (ix2 n 0)) (fun n j => V c main_arg0 (ix2 n j))
    (fun j k => V c main_arg2 (ix2 j k)) (fun k => V c main_v25 (ix2 0 k)) (fun j k => V c main_arg4 (ix2 j k))

/-! ## The two matrix products of a block, read at an index

A product's entry at row `p`, column `k` is the sum over the one contracted axis of the left operand's row `p`
times the right operand's column `k`.  The contraction index of the dimension numbers is a one-axis index; it is
carried to `Fin 128` (first layer) and `Fin 256` (projection) through the coordinate bijection. -/

/-- First-layer product, left operand, row axis: the output's row. -/
private theorem hidDot_lhs_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- First-layer product, left operand, column axis: the contracted coordinate. -/
private theorem hidDot_lhs_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
/-- First-layer product, right operand, row axis: the contracted coordinate. -/
private theorem hidDot_rhs_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
/-- First-layer product, right operand, column axis: the output's column. -/
private theorem hidDot_rhs_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A [2000,128] × [128,256] product into the zero accumulator, at row `p` and column `k`. -/
private theorem hidDot_apply (a : FVec Ideal S2000x128 .bf16) (b : FVec Ideal S128x256 .bf16) (p : Fin 2000) (k : Fin 256) :
    matmul dot_S2000x128_S128x256_S2000x256_1_0_0_1_n_n none a b (constant (F := Ideal) S2000x256 .f32 0x00000000#32) (ix2 p k)
      = ∑ i : Fin 128, a (ix2 p i) * b (ix2 i k) := by
  simp only [matmul]
  rw [Ideal.matmul_constant_zero_apply, ← Equiv.sum_comp (ValueIdx.contrEquiv1 dot_S2000x128_S128x256_S2000x256_1_0_0_1_n_n 128 rfl rfl).symm]
  refine Finset.sum_congr rfl fun i _ => ?_
  have hk := ValueIdx.contrEquiv1_symm_val dot_S2000x128_S128x256_S2000x256_1_0_0_1_n_n 128 rfl rfl i
  have el : dot_S2000x128_S128x256_S2000x256_1_0_0_1_n_n.lhsIdx (ix2 p k) ((ValueIdx.contrEquiv1 dot_S2000x128_S128x256_S2000x256_1_0_0_1_n_n 128 rfl rfl).symm i) = ix2 p i := funext fun a => Fin.ext (by
    match a with
    | ⟨0, _⟩ => exact hidDot_lhs_0 _ _
    | ⟨1, _⟩ => exact (hidDot_lhs_1 _ _).trans hk)
  have er : dot_S2000x128_S128x256_S2000x256_1_0_0_1_n_n.rhsIdx (ix2 p k) ((ValueIdx.contrEquiv1 dot_S2000x128_S128x256_S2000x256_1_0_0_1_n_n 128 rfl rfl).symm i) = ix2 i k := funext fun a => Fin.ext (by
    match a with
    | ⟨0, _⟩ => exact (hidDot_rhs_0 _ _).trans hk
    | ⟨1, _⟩ => exact hidDot_rhs_1 _ _)
  rw [el, er]

/-- Projection product, left operand, row axis: the output's row. -/
private theorem projDot_lhs_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- Projection product, left operand, column axis: the contracted coordinate. -/
private theorem projDot_lhs_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
/-- Projection product, right operand, row axis: the contracted coordinate. -/
private theorem projDot_rhs_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
/-- Projection product, right operand, column axis: the output's column. -/
private theorem projDot_rhs_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- A [2000,256] × [256,128] product into the zero accumulator, at row `p` and column `q`. -/
private theorem projDot_apply (a : FVec Ideal S2000x256 .bf16) (b : FVec Ideal S256x128 .bf16) (p : Fin 2000) (q : Fin 128) :
    matmul dot_S2000x256_S256x128_S2000x128_1_0_0_1_n_n none a b (constant (F := Ideal) S2000x128 .f32 0x00000000#32) (ix2 p q)
      = ∑ k : Fin 256, a (ix2 p k) * b (ix2 k q) := by
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact projDot_lhs_0 _ _
    | ⟨1, _⟩ => exact (projDot_lhs_1 _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (projDot_rhs_0 _ _).trans hk
    | ⟨1, _⟩ => exact projDot_rhs_1 _ _)
  rw [el, er]

/-! ## The block's arithmetic at an index

The body scales the neighbour sums by the reciprocal degree (a column broadcast along the 128 features), multiplies by
`w1_l`, adds the bias (a row broadcast down the 2000 rows) and the product of the node's own features with `w1_r`, and
rectifies.  The narrowing conversions are the identity on the extended reals and a cast to the same shape is the
identity, so at row `p`, channel `k` what is left is the two sums, the bias and the maximum with zero. -/

/-- Row `p`, channel `k` of the hidden block. -/
private theorem hid_block_apply (v0 : Vec Ideal S2000x1 .f32) (v2 v7 : Vec Ideal S2000x128 .f32) (v9 v11 : Vec Ideal S128x256 .f32)
    (v18 : Vec Ideal S1x256 .f32) (p : Fin 2000) (k : Fin 256) :
    k0_pay1 v0 v2 v7 v9 v11 v18 (ix2 p k)
      = max (((∑ i : Fin 128, (v2 (ix2 p i) * v0 (ix2 p 0)) * v9 (ix2 i k)) + v18 (ix2 0 k)) + ∑ i : Fin 128, v7 (ix2 p i) * v11 (ix2 i k)) 0 := by
  unfold k0_pay1
  simp only [shapeCast_self]
  show max ((matmul (F := Ideal) dot_S2000x128_S128x256_S2000x256_1_0_0_1_n_n none _ _ _ (ix2 p k) + broadcastTo S2000x256 v18 broadcasts_S1x256_S2000x256 (ix2 p k))
      + matmul (F := Ideal) dot_S2000x128_S128x256_S2000x256_1_0_0_1_n_n none _ _ _ (ix2 p k)) (Ideal.ofBits .f32 0x00000000#32) = _
  rw [Ideal.ofBits_zero_f32, hidDot_apply, hidDot_apply,
    broadcastTo_apply v18 broadcasts_S1x256_S2000x256 (ix2 p k) (ix2 0 k) (fun a => match a with | ⟨0, _⟩ => rfl | ⟨1, _⟩ => rfl)]
  refine congrArg (max · 0) (congrArg₂ (· + ·) (congrArg (· + v18 (ix2 0 k)) (Finset.sum_congr rfl fun i _ => ?_)) rfl)
  show (v2 (ix2 p i) * broadcastTo S2000x128 v0 broadcasts_S2000x1_S2000x128 (ix2 p i)) * v9 (ix2 i k) = _
  rw [broadcastTo_apply v0 broadcasts_S2000x1_S2000x128 (ix2 p i) (ix2 p 0) (fun a => match a with | ⟨0, _⟩ => rfl | ⟨1, _⟩ => rfl)]

/-- Row `p`, column `q` of the first output block: the hidden row through the block of `w2_l`. -/
private theorem out_l_block_apply (v0 : Vec Ideal S2000x1 .f32) (v2 v7 : Vec Ideal S2000x128 .f32) (v9 v11 : Vec Ideal S128x256 .f32)
    (v13 : Vec Ideal S256x128 .f32) (v18 : Vec Ideal S1x256 .f32) (p : Fin 2000) (q : Fin 128) :
    k0_pay2 v0 v2 v7 v9 v11 v13 v18 (ix2 p q) = ∑ k : Fin 256, k0_pay1 v0 v2 v7 v9 v11 v18 (ix2 p k) * v13 (ix2 k q) := by
  unfold k0_pay2
  show matmul (F := Ideal) dot_S2000x256_S256x128_S2000x128_1_0_0_1_n_n none (k0_pay1 v0 v2 v7 v9 v11 v18) (truncf .bf16 v13 bitsLt_bf16_f32)
      (constant (F := Ideal) S2000x128 .f32 0x00000000#32) (ix2 p q) = _
  rw [projDot_apply]
  rfl

/-- Row `p`, column `q` of the second output block: the hidden row through the block of `w2_r`. -/
private theorem out_r_block_apply (v0 : Vec Ideal S2000x1 .f32) (v2 v7 : Vec Ideal S2000x128 .f32) (v9 v11 : Vec Ideal S128x256 .f32)
    (v15 : Vec Ideal S256x128 .f32) (v18 : Vec Ideal S1x256 .f32) (p : Fin 2000) (q : Fin 128) :
    k0_pay3 v0 v2 v7 v9 v11 v15 v18 (ix2 p q) = ∑ k : Fin 256, k0_pay1 v0 v2 v7 v9 v11 v18 (ix2 p k) * v15 (ix2 k q) := by
  unfold k0_pay3
  show matmul (F := Ideal) dot_S2000x256_S256x128_S2000x128_1_0_0_1_n_n none (k0_pay1 v0 v2 v7 v9 v11 v18) (truncf .bf16 v15 bitsLt_bf16_f32)
      (constant (F := Ideal) S2000x128 .f32 0x00000000#32) (ix2 p q) = _
  rw [projDot_apply]
  rfl

/-! ## Where a grid point's blocks lie

Point `t` of the 25 takes block `(t, 0)` of each per-node array — rows `2000 t … 2000 t + 1999` — and block `(0, 0)`, the
whole, of each weight matrix and of the bias. -/

private theorem zero_offsets : (![0, 0] : Fin 2 → Nat) = fun _ => 0 := funext fun a => by fin_cases a <;> rfl

/-- The index maps of the ten windows, evaluated at each of the 25 points. -/
private theorem row_block_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ t.val < 25 :=
  (by decide +kernel : ∀ t : Fin grid0.N, _)

/-- Every one of the 25 row blocks is some point's. -/
private theorem grid_point : ∀ b : Fin 25, ∃ t : Fin cfg0.N, t.val = b.val :=
  (by decide +kernel : ∀ b : Fin 25, ∃ t : Fin grid0.N, t.val = b.val)

/-- The array row that row `p` of point `t`'s block is. -/
private def rowOf (t : Fin cfg0.N) (p : Fin 2000) : Fin 50000 :=
  ⟨t.val * 2000 + p.val, by have := (row_block_facts t).2.2.2.2.2.2.2.2.2.2.2.2.2.2.2.2.2.2.2.2; have := p.isLt; omega⟩

private theorem rowOf_val (t : Fin cfg0.N) (p : Fin 2000) : (rowOf t p).val = t.val * 2000 + p.val := rfl

/-! ## The blocks a point reads, each where its window's rectangle says -/

/-- Point `t`'s block of the neighbour sums. -/
private def msgBlk (c : Dev nD) (t : Fin cfg0.N) : Vec Ideal S2000x128 .f32 := iblk0 V c 0 t
/-- Point `t`'s block of the reciprocal degrees. -/
private def invBlk (c : Dev nD) (t : Fin cfg0.N) : Vec Ideal S2000x1 .f32 := iblk0 V c 1 t
/-- Point `t`'s block of the node features. -/
private def xBlk (c : Dev nD) (t : Fin cfg0.N) : Vec Ideal S2000x128 .f32 := iblk0 V c 2 t
/-- The whole of `w1_l`, as point `t` reads it. -/
private def w1lBlk (c : Dev nD) (t : Fin cfg0.N) : Vec Ideal S128x256 .f32 := iblk0 V c 3 t
/-- The whole bias row, as point `t` reads it. -/
private def b1Blk (c : Dev nD) (t : Fin cfg0.N) : Vec Ideal S1x256 .f32 := iblk0 V c 4 t
/-- The whole of `w1_r`, as point `t` reads it. -/
private def w1rBlk (c : Dev nD) (t : Fin cfg0.N) : Vec Ideal S128x256 .f32 := iblk0 V c 5 t
/-- The whole of `w2_l`, as point `t` reads it. -/
private def w2lBlk (c : Dev nD) (t : Fin cfg0.N) : Vec Ideal S256x128 .f32 := iblk0 V c 6 t
/-- The whole of `w2_r`, as point `t` reads it. -/
private def w2rBlk (c : Dev nD) (t : Fin cfg0.N) : Vec Ideal S256x128 .f32 := iblk0 V c 7 t

private theorem msgBlk_apply (c : Dev nD) (t : Fin cfg0.N) (p : Fin 2000) (i : Fin 128) :
    msgBlk V c t (ix2 p i) = V c main_v24 (ix2 (rowOf t p) i) := by
  show V c main_v24 (((cfg0.win 0).blk t).view.emb (ix2 p i)) = _
  refine congrArg (V c main_v24) (funext fun a => Fin.ext ?_)
  obtain ⟨e00, e01, e10, e11, e20, e21, e30, e31, e40, e41, e50, e51, e60, e61, e70, e71, e80, e81, e90, e91, hlt⟩ := row_block_facts t
  match a with
  | ⟨0, _⟩ => show win0_0.index t (0 : Fin 2) * 2000 + 1 * p.val = t.val * 2000 + p.val; omega
  | ⟨1, _⟩ => show win0_0.index t (1 : Fin 2) * 128 + 1 * i.val = i.val; omega

private theorem invBlk_apply (c : Dev nD) (t : Fin cfg0.N) (p : Fin 2000) (z : Fin 1) :
    invBlk V c t (ix2 p z) = V c main_v12 (ix2 (rowOf t p) z) := by
  show V c main_v12 (((cfg0.win 1).blk t).view.emb (ix2 p z)) = _
  refine congrArg (V c main_v12) (funext fun a => Fin.ext ?_)
  obtain ⟨e00, e01, e10, e11, e20, e21, e30, e31, e40, e41, e50, e51, e60, e61, e70, e71, e80, e81, e90, e91, hlt⟩ := row_block_facts t
  match a with
  | ⟨0, _⟩ => show win0_1.index t (0 : Fin 2) * 2000 + 1 * p.val = t.val * 2000 + p.val; omega
  | ⟨1, _⟩ => show win0_1.index t (1 : Fin 2) * 1 + 1 * z.val = z.val; omega

private theorem xBlk_apply (c : Dev nD) (t : Fin cfg0.N) (p : Fin 2000) (i : Fin 128) :
    xBlk V c t (ix2 p i) = V c main_arg0 (ix2 (rowOf t p) i) := by
  show V c main_arg0 (((cfg0.win 2).blk t).view.emb (ix2 p i)) = _
  refine congrArg (V c main_arg0) (funext fun a => Fin.ext ?_)
  obtain ⟨e00, e01, e10, e11, e20, e21, e30, e31, e40, e41, e50, e51, e60, e61, e70, e71, e80, e81, e90, e91, hlt⟩ := row_block_facts t
  match a with
  | ⟨0, _⟩ => show win0_2.index t (0 : Fin 2) * 2000 + 1 * p.val = t.val * 2000 + p.val; omega
  | ⟨1, _⟩ => show win0_2.index t (1 : Fin 2) * 128 + 1 * i.val = i.val; omega

private theorem w1lBlk_apply (c : Dev nD) (t : Fin cfg0.N) (r : Fin 128) (s : Fin 256) :
    w1lBlk V c t (ix2 r s) = V c main_arg2 (ix2 r s) := by
  show V c main_arg2 (((cfg0.win 3).blk t).view.emb (ix2 r s)) = _
  refine congrArg (V c main_arg2) (funext fun a => Fin.ext ?_)
  obtain ⟨e00, e01, e10, e11, e20, e21, e30, e31, e40, e41, e50, e51, e60, e61, e70, e71, e80, e81, e90, e91, hlt⟩ := row_block_facts t
  match a with
  | ⟨0, _⟩ => show win0_3.index t (0 : Fin 2) * 128 + 1 * r.val = r.val; omega
  | ⟨1, _⟩ => show win0_3.index t (1 : Fin 2) * 256 + 1 * s.val = s.val; omega

private theorem b1Blk_apply (c : Dev nD) (t : Fin cfg0.N) (r : Fin 1) (s : Fin 256) :
    b1Blk V c t (ix2 r s) = V c main_v25 (ix2 r s) := by
  show V c main_v25 (((cfg0.win 4).blk t).view.emb (ix2 r s)) = _
  refine congrArg (V c main_v25) (funext fun a => Fin.ext ?_)
  obtain ⟨e00, e01, e10, e11, e20, e21, e30, e31, e40, e41, e50, e51, e60, e61, e70, e71, e80, e81, e90, e91, hlt⟩ := row_block_facts t
  match a with
  | ⟨0, _⟩ => show win0_4.index t (0 : Fin 2) * 1 + 1 * r.val = r.val; omega
  | ⟨1, _⟩ => show win0_4.index t (1 : Fin 2) * 256 + 1 * s.val = s.val; omega

private theorem w1rBlk_apply (c : Dev nD) (t : Fin cfg0.N) (r : Fin 128) (s : Fin 256) :
    w1rBlk V c t (ix2 r s) = V c main_arg4 (ix2 r s) := by
  show V c main_arg4 (((cfg0.win 5).blk t).view.emb (ix2 r s)) = _
  refine congrArg (V c main_arg4) (funext fun a => Fin.ext ?_)
  obtain ⟨e00, e01, e10, e11, e20, e21, e30, e31, e40, e41, e50, e51, e60, e61, e70, e71, e80, e81, e90, e91, hlt⟩ := row_block_facts t
  match a with
  | ⟨0, _⟩ => show win0_5.index t (0 : Fin 2) * 128 + 1 * r.val = r.val; omega
  | ⟨1, _⟩ => show win0_5.index t (1 : Fin 2) * 256 + 1 * s.val = s.val; omega

private theorem w2lBlk_apply (c : Dev nD) (t : Fin cfg0.N) (r : Fin 256) (s : Fin 128) :
    w2lBlk V c t (ix2 r s) = V c main_arg5 (ix2 r s) := by
  show V c main_arg5 (((cfg0.win 6).blk t).view.emb (ix2 r s)) = _
  refine congrArg (V c main_arg5) (funext fun a => Fin.ext ?_)
  obtain ⟨e00, e01, e10, e11, e20, e21, e30, e31, e40, e41, e50, e51, e60, e61, e70, e71, e80, e81, e90, e91, hlt⟩ := row_block_facts t
  match a with
  | ⟨0, _⟩ => show win0_6.index t (0 : Fin 2) * 256 + 1 * r.val = r.val; omega
  | ⟨1, _⟩ => show win0_6.index t (1 : Fin 2) * 128 + 1 * s.val = s.val; omega

private theorem w2rBlk_apply (c : Dev nD) (t : Fin cfg0.N) (r : Fin 256) (s : Fin 128) :
    w2rBlk V c t (ix2 r s) = V c main_arg7 (ix2 r s) := by
  show V c main_arg7 (((cfg0.win 7).blk t).view.emb (ix2 r s)) = _
  refine congrArg (V c main_arg7) (funext fun a => Fin.ext ?_)
  obtain ⟨e00, e01, e10, e11, e20, e21, e30, e31, e40, e41, e50, e51, e60, e61, e70, e71, e80, e81, e90, e91, hlt⟩ := row_block_facts t
  match a with
  | ⟨0, _⟩ => show win0_7.index t (0 : Fin 2) * 256 + 1 * r.val = r.val; omega
  | ⟨1, _⟩ => show win0_7.index t (1 : Fin 2) * 128 + 1 * s.val = s.val; omega

/-- Row `p`, channel `k` of point `t`'s hidden block is row `2000 t + p`, channel `k` of the hidden layer. -/
private theorem hid_block_eq (c : Dev nD) (t : Fin cfg0.N) (p : Fin 2000) (k : Fin 256) :
    k0_pay1 (invBlk V c t) (msgBlk V c t) (xBlk V c t) (w1lBlk V c t) (w1rBlk V c t) (b1Blk V c t) (ix2 p k) = hidOf V c (rowOf t p) k := by
  rw [hid_block_apply]
  show _ = Cert.Sage.hid _ _ _ _ _ _ (rowOf t p) k
  unfold Cert.Sage.hid
  simp only [msgBlk_apply, invBlk_apply, xBlk_apply, w1lBlk_apply, w1rBlk_apply, b1Blk_apply]

/-! ## Output window 8: what a point writes back, and the array the blocks tile -/

/-- Row `p`, column `q` of point `t`'s block of the output is row `2000 t + p`, column `q` of the array. -/
private theorem out_l_emb (t : Fin cfg0.N) (p : Fin 2000) (q : Fin 128) :
    (((cfg0.win 8).blk t).view.emb (ix2 p q) : S50000x128.Idx) = ix2 (rowOf t p) q := by
  refine funext fun a => Fin.ext ?_
  obtain ⟨e00, e01, e10, e11, e20, e21, e30, e31, e40, e41, e50, e51, e60, e61, e70, e71, e80, e81, e90, e91, hlt⟩ := row_block_facts t
  match a with
  | ⟨0, _⟩ => show win0_8.index t (0 : Fin 2) * 2000 + 1 * p.val = t.val * 2000 + p.val; omega
  | ⟨1, _⟩ => show win0_8.index t (1 : Fin 2) * 128 + 1 * q.val = q.val; omega

/-- What point `t` writes back is block `t` of the hidden layer through `w2_l`. -/
private theorem flushed_l_eq (c : Dev nD) (t : Fin cfg0.N) :
    (dat0 (F := Ideal) V c).flushed 8 t = ((cfg0.win 8).blk t).view.read (Elt Ideal)
      (fun (i : S50000x128.Idx) => Cert.Sage.proj (hidOf V c) (fun k q => V c main_arg5 (ix2 k q)) (i 0) (i 1)) := by
  show (cfg0.win 8).cut (grid0.coords t) ((dat0 V c).after 8 t) = _
  rw [after0_8]
  unfold out0_8
  rw [View.canon_unit_zero zero_offsets]
  simp only [View.ld_unit_zero (S := S2000x128) zero_offsets, View.ld_unit_zero (S := S2000x1) zero_offsets,
    View.ld_unit_zero (S := S128x256) zero_offsets, View.ld_unit_zero (S := S256x128) zero_offsets,
    View.ld_unit_zero (S := S1x256) zero_offsets]
  refine funext fun (j : S2000x128.Idx) => ?_
  obtain ⟨p, q, rfl⟩ : ∃ (p : Fin 2000) (q : Fin 128), j = ix2 p q := ⟨j 0, j 1, eq_ix2 j⟩
  show k0_pay2 (invBlk V c t) (msgBlk V c t) (xBlk V c t) (w1lBlk V c t) (w1rBlk V c t) (w2lBlk V c t) (b1Blk V c t) (ix2 p q)
      = Cert.Sage.proj (hidOf V c) (fun k q => V c main_arg5 (ix2 k q))
          ((((cfg0.win 8).blk t).view.emb (ix2 p q) : S50000x128.Idx) 0) ((((cfg0.win 8).blk t).view.emb (ix2 p q) : S50000x128.Idx) 1)
  rw [out_l_emb, out_l_block_apply]
  show _ = Cert.Sage.proj _ _ (rowOf t p) q
  unfold Cert.Sage.proj
  exact Finset.sum_congr rfl fun k _ => by rw [hid_block_eq, w2lBlk_apply]

/-- An index of the array is in point `t`'s block iff each coordinate is in the block's range on its axis. -/
private theorem mem_blk_l (t : Fin cfg0.N) (i : S50000x128.Idx) :
    i ∈ ((cfg0.win 8).blk t).view.set ↔ ∀ a : Fin 2, win0_8.index t a * S2000x128.size a ≤ (i a).val ∧ (i a).val < win0_8.index t a * S2000x128.size a + S2000x128.size a := by
  show i ∈ ((View.whole main_v26_0).slice (win0_8.rect t)).set ↔ _
  rw [View.set_slice_whole, Rect.mem_set_unit]
  exact Iff.rfl

/-- Row `r` lies in the block of point `r / 2000`: the 25 blocks tile the array. -/
private theorem out_l_covered (i : S50000x128.Idx) :
    ∃ t : Fin cfg0.N, (cfg0.win 8).flush t = true ∧ i ∈ ((cfg0.win 8).blk t).view.set := by
  have hi0 : (i 0).val < 50000 := (i 0).isLt
  have hi1 : (i 1).val < 128 := (i 1).isLt
  obtain ⟨t, ht⟩ := grid_point ⟨(i 0).val / 2000, by omega⟩
  have ht' : t.val = (i 0).val / 2000 := ht
  obtain ⟨e00, e01, e10, e11, e20, e21, e30, e31, e40, e41, e50, e51, e60, e61, e70, e71, e80, e81, e90, e91, hlt⟩ := row_block_facts t
  refine ⟨t, flush0_8 t, ?_⟩
  rw [mem_blk_l]
  intro a
  match a with
  | ⟨0, _⟩ => show win0_8.index t (0 : Fin 2) * 2000 ≤ (i 0).val ∧ (i 0).val < win0_8.index t (0 : Fin 2) * 2000 + 2000; omega
  | ⟨1, _⟩ => show win0_8.index t (1 : Fin 2) * 128 ≤ (i 1).val ∧ (i 1).val < win0_8.index t (1 : Fin 2) * 128 + 128; omega

/-! ## Output window 9: what a point writes back, and the array the blocks tile -/

/-- Row `p`, column `q` of point `t`'s block of the output is row `2000 t + p`, column `q` of the array. -/
private theorem out_r_emb (t : Fin cfg0.N) (p : Fin 2000) (q : Fin 128) :
    (((cfg0.win 9).blk t).view.emb (ix2 p q) : S50000x128.Idx) = ix2 (rowOf t p) q := by
  refine funext fun a => Fin.ext ?_
  obtain ⟨e00, e01, e10, e11, e20, e21, e30, e31, e40, e41, e50, e51, e60, e61, e70, e71, e80, e81, e90, e91, hlt⟩ := row_block_facts t
  match a with
  | ⟨0, _⟩ => show win0_9.index t (0 : Fin 2) * 2000 + 1 * p.val = t.val * 2000 + p.val; omega
  | ⟨1, _⟩ => show win0_9.index t (1 : Fin 2) * 128 + 1 * q.val = q.val; omega

/-- What point `t` writes back is block `t` of the hidden layer through `w2_r`. -/
private theorem flushed_r_eq (c : Dev nD) (t : Fin cfg0.N) :
    (dat0 (F := Ideal) V c).flushed 9 t = ((cfg0.win 9).blk t).view.read (Elt Ideal)
      (fun (i : S50000x128.Idx) => Cert.Sage.proj (hidOf V c) (fun k q => V c main_arg7 (ix2 k q)) (i 0) (i 1)) := by
  show (cfg0.win 9).cut (grid0.coords t) ((dat0 V c).after 9 t) = _
  rw [after0_9]
  unfold out0_9
  rw [View.canon_unit_zero zero_offsets]
  simp only [View.ld_unit_zero (S := S2000x128) zero_offsets, View.ld_unit_zero (S := S2000x1) zero_offsets,
    View.ld_unit_zero (S := S128x256) zero_offsets, View.ld_unit_zero (S := S256x128) zero_offsets,
    View.ld_unit_zero (S := S1x256) zero_offsets]
  refine funext fun (j : S2000x128.Idx) => ?_
  obtain ⟨p, q, rfl⟩ : ∃ (p : Fin 2000) (q : Fin 128), j = ix2 p q := ⟨j 0, j 1, eq_ix2 j⟩
  show k0_pay3 (invBlk V c t) (msgBlk V c t) (xBlk V c t) (w1lBlk V c t) (w1rBlk V c t) (w2rBlk V c t) (b1Blk V c t) (ix2 p q)
      = Cert.Sage.proj (hidOf V c) (fun k q => V c main_arg7 (ix2 k q))
          ((((cfg0.win 9).blk t).view.emb (ix2 p q) : S50000x128.Idx) 0) ((((cfg0.win 9).blk t).view.emb (ix2 p q) : S50000x128.Idx) 1)
  rw [out_r_emb, out_r_block_apply]
  show _ = Cert.Sage.proj _ _ (rowOf t p) q
  unfold Cert.Sage.proj
  exact Finset.sum_congr rfl fun k _ => by rw [hid_block_eq, w2rBlk_apply]

/-- An index of the array is in point `t`'s block iff each coordinate is in the block's range on its axis. -/
private theorem mem_blk_r (t : Fin cfg0.N) (i : S50000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v26_1).slice (win0_9.rect t)).set ↔ _
  rw [View.set_slice_whole, Rect.mem_set_unit]
  exact Iff.rfl

/-- Row `r` lies in the block of point `r / 2000`: the 25 blocks tile the array. -/
private theorem out_r_covered (i : S50000x128.Idx) :
    ∃ t : Fin cfg0.N, (cfg0.win 9).flush t = true ∧ i ∈ ((cfg0.win 9).blk t).view.set := by
  have hi0 : (i 0).val < 50000 := (i 0).isLt
  have hi1 : (i 1).val < 128 := (i 1).isLt
  obtain ⟨t, ht⟩ := grid_point ⟨(i 0).val / 2000, by omega⟩
  have ht' : t.val = (i 0).val / 2000 := ht
  obtain ⟨e00, e01, e10, e11, e20, e21, e30, e31, e40, e41, e50, e51, e60, e61, e70, e71, e80, e81, e90, e91, hlt⟩ := row_block_facts t
  refine ⟨t, flush0_9 t, ?_⟩
  rw [mem_blk_r]
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 128 ≤ (i 1).val ∧ (i 1).val < win0_9.index t (1 : Fin 2) * 128 + 128; omega

/-- The first output array after the region: the hidden layer through `w2_l`. -/
theorem final8 (c : Dev nD) :
    (dat0 (F := Ideal) V c).arrAt 8 cfg0.N
      = fun (i : S50000x128.Idx) => Cert.Sage.proj (hidOf V c) (fun k q => V c main_arg5 (ix2 k q)) (i 0) (i 1) :=
  (dat0 (F := Ideal) V c).arrAt_eq_of_cover 8 _ (fun t _ => flushed_l_eq V c t) out_l_covered

/-- The second output array after the region: the hidden layer through `w2_r`. -/
theorem final9 (c : Dev nD) :
    (dat0 (F := Ideal) V c).arrAt 9 cfg0.N
      = fun (i : S50000x128.Idx) => Cert.Sage.proj (hidOf V c) (fun k q => V c main_arg7 (ix2 k q)) (i 0) (i 1) :=
  (dat0 (F := Ideal) V c).arrAt_eq_of_cover 9 _ (fun t _ => flushed_r_eq V c t) out_r_covered

end Cert.KernelIdeal.Reg0

end
-- ==== Proof.Region1Value.lean ====
/-
  What the second kernel leaves in its output array, as a whole-array function of the arrays it finds.

  Point `t` of the 25 reads rows `2000 t … 2000 t + 1999` of the neighbour sum, of the reciprocal degrees and of
  the node's own term, and the whole bias row, and writes the same rows of the output: element `(p, q)` is
  `msg2 p q · inv p + b2 q + hr p q`.  The blocks tile the array.
-/
import proofs.«407070_j89043261981499_3_alg».proof.Proof.Gen.KernelIdeal.Frame
import proofs.«407070_j89043261981499_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- A column of reciprocal degrees spread over the 128 lanes reads, at `(p, q)`, the column at row `p`. -/
theorem column_spread (v : (⟨2, ![2000, 1]⟩ : Shape).Idx → EReal) (h : (⟨2, ![2000, 1]⟩ : Shape).Broadcasts ⟨2, ![2000, 128]⟩)
    (p : Fin 2000) (q : Fin 128) : broadcastTo ⟨2, ![2000, 128]⟩ v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The body's arithmetic at row `p`, lane `q`. -/
theorem payload_at (v0 : Vec Ideal S2000x1 .f32) (v2 : Vec Ideal S2000x128 .f32) (v6 : Vec Ideal S1x128 .f32)
    (v10 : Vec Ideal S2000x128 .bf16) (p : Fin 2000) (q : Fin 128) :
    k1_pay1 (F := Ideal) v0 v2 v6 v10 (ix2 p q)
      = (v2 (ix2 p q) * v0 (ix2 p (0 : Fin 1)) + v6 (ix2 (0 : Fin 1) q)) + v10 (ix2 p q) := by
  unfold k1_pay1
  simp only [shapeCast_self]
  show (v2 (ix2 p q) * broadcastTo S2000x128 v0 broadcasts_S2000x1_S2000x128 (ix2 p q)
      + broadcastTo S2000x128 v6 broadcasts_S1x128_S2000x128 (ix2 p q)) + v10 (ix2 p q) = _
  rw [column_spread, broadcastTo_1b_ab_apply]

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the 25 points: the three row windows and the output sit at block `t` of the rows,
    the bias at block 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-! ## Each block read where the rows say: row `p` of block `t` is row `2000 t + p` of the array -/

/-- The neighbour sum's block. -/
theorem msg_read (c : Dev nD) (t : Fin cfg1.N) (p : Fin 2000) (q : Fin 128) (n : Fin 50000) (hn : n.val = t.val * 2000 + p.val) :
    (iblk1 V c 0 t : Vec Ideal S2000x128 .f32) (ix2 p q) = V c main_v37 (ix2 n q) := by
  show V c main_v37 (((cfg1.win 0).blk t).view.emb (ix2 p q)) = V c main_v37 (ix2 n q)
  refine congrArg (V c main_v37) ?_
  obtain ⟨e0, e1, -⟩ := index_facts t
  funext a; apply Fin.ext
  match a with
  | ⟨0, _⟩ => show win1_0.index t (0 : Fin 2) * 2000 + 1 * p.val = n.val; omega
  | ⟨1, _⟩ => show win1_0.index t (1 : Fin 2) * 128 + 1 * q.val = q.val; omega

/-- The reciprocal degrees' block. -/
theorem inv_read (c : Dev nD) (t : Fin cfg1.N) (p : Fin 2000) (n : Fin 50000) (hn : n.val = t.val * 2000 + p.val) :
    (iblk1 V c 1 t : Vec Ideal S2000x1 .f32) (ix2 p (0 : Fin 1)) = V c main_v12 (ix2 n (0 : Fin 1)) := by
  show V c main_v12 (((cfg1.win 1).blk t).view.emb (ix2 p (0 : Fin 1))) = V c main_v12 (ix2 n (0 : Fin 1))
  refine congrArg (V c main_v12) ?_
  obtain ⟨-, -, e0, e1, -⟩ := index_facts t
  funext a; apply Fin.ext
  match a with
  | ⟨0, _⟩ => show win1_1.index t (0 : Fin 2) * 2000 + 1 * p.val = n.val; omega
  | ⟨1, _⟩ => show win1_1.index t (1 : Fin 2) * 1 + 1 * 0 = 0; omega

/-- The node's own term's block. -/
theorem own_read (c : Dev nD) (t : Fin cfg1.N) (p : Fin 2000) (q : Fin 128) (n : Fin 50000) (hn : n.val = t.val * 2000 + p.val) :
    (iblk1 V c 2 t : Vec Ideal S2000x128 .bf16) (ix2 p q) = V c main_v26_1 (ix2 n q) := by
  show V c main_v26_1 (((cfg1.win 2).blk t).view.emb (ix2 p q)) = V c main_v26_1 (ix2 n q)
  refine congrArg (V c main_v26_1) ?_
  obtain ⟨-, -, -, -, e0, e1, -⟩ := index_facts t
  funext a; apply Fin.ext
  match a with
  | ⟨0, _⟩ => show win1_2.index t (0 : Fin 2) * 2000 + 1 * p.val = n.val; omega
  | ⟨1, _⟩ => show win1_2.index t (1 : Fin 2) * 128 + 1 * q.val = q.val; omega

/-- The bias row: its one block is the whole row at every point. -/
theorem bias_read (c : Dev nD) (t : Fin cfg1.N) (q : Fin 128) :
    (iblk1 V c 3 t : Vec Ideal S1x128 .f32) (ix2 (0 : Fin 1) q) = V c main_v38 (ix2 (0 : Fin 1) q) := by
  show V c main_v38 (((cfg1.win 3).blk t).view.emb (ix2 (0 : Fin 1) q)) = V c main_v38 (ix2 (0 : Fin 1) q)
  refine congrArg (V c main_v38) ?_
  obtain ⟨-, -, -, -, -, -, e0, e1, -⟩ := index_facts t
  funext a; apply Fin.ext
  match a with
  | ⟨0, _⟩ => show win1_3.index t (0 : Fin 2) * 1 + 1 * 0 = 0; omega
  | ⟨1, _⟩ => show win1_3.index t (1 : Fin 2) * 128 + 1 * q.val = q.val; omega

/-- Where the output's block puts its element `(p, q)`. -/
theorem out_place (t : Fin cfg1.N) (p : Fin 2000) (q : Fin 128) (n : Fin 50000) (hn : n.val = t.val * 2000 + p.val) :
    ((cfg1.win 4).blk t).view.emb (ix2 p q) = (ix2 n q : S50000x128.Idx) := by
  obtain ⟨-, -, -, -, -, -, -, -, e0, e1⟩ := index_facts t
  funext a; apply Fin.ext
  match a with
  | ⟨0, _⟩ => show win1_4.index t (0 : Fin 2) * 2000 + 1 * p.val = n.val; omega
  | ⟨1, _⟩ => show win1_4.index t (1 : Fin 2) * 128 + 1 * q.val = q.val; omega

/-- The whole output array as a function of the arrays the region finds. -/
abbrev target (c : Dev nD) : S50000x128.Idx → EReal :=
  fun (i : S50000x128.Idx) => Cert.Sage.out2 (fun n q => V c main_v37 (ix2 n q)) (fun n => V c main_v12 (ix2 n 0))
          (fun n q => V c main_v26_1 (ix2 n q)) (fun q => V c main_v38 (ix2 0 q)) (i 0) (i 1)

/-- What point `t` writes back is block `t` of the target. -/
theorem flushed_block (c : Dev nD) (t : Fin cfg1.N) :
    (dat1 (F := Ideal) V c).flushed 4 t = ((cfg1.win 4).blk t).view.read (Elt Ideal) (target V c) := by
  show (cfg1.win 4).cut (grid1.coords t) ((dat1 V c).after 4 t) = _
  rw [after1_4]
  unfold out1_4
  rw [View.canon_unit_zero zero_offsets]
  simp only [View.ld_unit_zero (S := S2000x1) zero_offsets, View.ld_unit_zero (S := S2000x128) zero_offsets, View.ld_unit_zero (S := S1x128) zero_offsets]
  funext j
  obtain ⟨p, q, rfl⟩ : ∃ (p : Fin 2000) (q : Fin 128), j = ix2 p q := ⟨j 0, j 1, eq_ix2 j⟩
  have hN : grid1.N = 25 := N_1
  have ht : t.val < 25 := hN ▸ t.isLt
  obtain ⟨n, hn⟩ : ∃ n : Fin 50000, n.val = t.val * 2000 + p.val := ⟨⟨t.val * 2000 + p.val, by have := p.isLt; omega⟩, rfl⟩
  show k1_pay1 (F := Ideal) (iblk1 V c 1 t) (iblk1 V c 0 t) (iblk1 V c 3 t) (iblk1 V c 2 t) (ix2 p q)
      = target V c (((cfg1.win 4).blk t).view.emb (ix2 p q))
  rw [out_place t p q n hn]
  refine (payload_at _ _ _ _ p q).trans ?_
  rw [msg_read V c t p q n hn, inv_read V c t p n hn, own_read V c t p q n hn, bias_read V c t q]
  rfl

/-! ## The blocks tile the array -/

/-- An index is in point `t`'s block iff each coordinate is in the block's range on its axis. -/
theorem mem_block (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v39).slice (win1_4.rect t)).set ↔ _
  rw [View.set_slice_whole, Rect.mem_set_unit]
  exact Iff.rfl

/-- Row `r` lies in the block of point `r / 2000`. -/
theorem covered (i : S50000x128.Idx) : ∃ t : Fin cfg1.N, (cfg1.win 4).flush t = true ∧ i ∈ ((cfg1.win 4).blk t).view.set := by
  have hN : grid1.N = 25 := N_1
  have hi0 : (i 0).val < 50000 := (i 0).isLt
  have hi1 : (i 1).val < 128 := (i 1).isLt
  obtain ⟨t, ht⟩ : ∃ t : Fin cfg1.N, t.val = (i 0).val / 2000 := ⟨⟨(i 0).val / 2000, by show _ < grid1.N; rw [hN]; omega⟩, rfl⟩
  obtain ⟨-, -, -, -, -, -, -, -, e0, e1⟩ := index_facts t
  refine ⟨t, flush1_4 t, ?_⟩
  rw [mem_block]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- The output array after the region. -/
theorem final4 (c : Dev nD) :
    (dat1 (F := Ideal) V c).arrAt 4 cfg1.N
      = fun (i : S50000x128.Idx) => Cert.Sage.out2 (fun n q => V c main_v37 (ix2 n q)) (fun n => V c main_v12 (ix2 n 0))
          (fun n q => V c main_v26_1 (ix2 n q)) (fun q => V c main_v38 (ix2 0 q)) (i 0) (i 1) :=
  (dat1 V c).arrAt_eq_of_cover 4 (target V c) (fun t _ => flushed_block V c t) covered

end Cert.KernelIdeal.Reg1

end
-- ==== Proof.KernelHost.lean ====
/-
  The idealized kernel's result, read back through the boundaries of its run.

  The run is three stretches of host operations around two kernel regions.  At each boundary every buffer's
  contents is a fold from the launch memory: a host stretch rewrites the buffers its operations write, a region
  rewrites its output arrays to what its blocks leave and keeps everything else.  Read backwards from the
  result buffer: the last stretch decodes the node embeddings the second region wrote; the second region
  combines the neighbour sum (taken by the middle stretch) of what the first region wrote with that region's
  other output; the first region computes the hidden layer from the neighbour sum and the reciprocal degrees
  the first stretch prepared.  The edge columns, the degrees and every argument pass through unchanged.
-/
import proofs.«407070_j89043261981499_3_alg».proof.Proof.Gen.KernelIdeal.Frame
import proofs.«407070_j89043261981499_3_alg».proof.Proof.Gen.ReferenceIdeal.Read
import proofs.«407070_j89043261981499_3_alg».proof.Proof.Terms
import proofs.«407070_j89043261981499_3_alg».proof.Proof.Algebra
import proofs.«407070_j89043261981499_3_alg».proof.Proof.Region0Value
import proofs.«407070_j89043261981499_3_alg».proof.Proof.Region1Value
import Idealize.ShloMosaic.Lib.StableHlo.Run
import Idealize.ShloMosaic.Lib.Pipeline.Value
import Idealize.ShloMosaic.Lib.ValueIdx

set_option maxRecDepth 16384

noncomputable section

namespace Cert.KernelIdeal.Host

open Cert.KernelIdeal Cert.KernelIdeal.Gen Idealize.ShloMosaic Idealize.ShloMosaic.TcCoe Idealize.ShloMosaic.ValueIdx
open Idealize.SL.Sem Idealize.ShloMosaic.StableHlo
open Cert.ReferenceIdeal.Read (val_main_v1 val_main_v3 val_main_v13 val_main_v18 val_main_v19)
open Cert.Sage (nbr inv hidK hwK hrK zK decode)

variable (m : (ℓ : Loc nD τ sig) → Buf (Elt Ideal) ℓ) (ρ : Dev nD → PrngReg) (c : Dev nD)

set_option quotPrecheck false

local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)

/-- A buffer that no operation of a host stretch writes keeps its contents across the stretch. -/
macro "not_written" ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## At the first region's entry -/

/-- The arguments reach the first region as launched. -/
theorem V1_arg0 : V1 m ρ c main_arg0 = A0 := by
  show StableHlo.after hostOps0 (W0 m ρ c) (Proc.devRef .tc main_arg0) = _; not_written hostOps0
theorem V1_arg2 : V1 m ρ c main_arg2 = A2 := by
  show StableHlo.after hostOps0 (W0 m ρ c) (Proc.devRef .tc main_arg2) = _; not_written hostOps0
theorem V1_arg4 : V1 m ρ c main_arg4 = A4 := by
  show StableHlo.after hostOps0 (W0 m ρ c) (Proc.devRef .tc main_arg4) = _; not_written hostOps0
theorem V1_arg5 : V1 m ρ c main_arg5 = A5 := by
  show StableHlo.after hostOps0 (W0 m ρ c) (Proc.devRef .tc main_arg5) = _; not_written hostOps0
theorem V1_arg6 : V1 m ρ c main_arg6 = A6 := by
  show StableHlo.after hostOps0 (W0 m ρ c) (Proc.devRef .tc main_arg6) = _; not_written hostOps0
theorem V1_arg7 : V1 m ρ c main_arg7 = A7 := by
  show StableHlo.after hostOps0 (W0 m ρ c) (Proc.devRef .tc main_arg7) = _; not_written hostOps0

set_option maxHeartbeats 4000000 in
/-- The first stretch leaves the first neighbour sum, the two edge columns, the reciprocal degrees as a column
    and the first bias as a row. -/
theorem V1_computed :
    V1 m ρ c main_v24 = nbr A1 A0
    ∧ V1 m ρ c main_v1 = val_main_v1 (F := Ideal) A1
    ∧ V1 m ρ c main_v3 = val_main_v3 (F := Ideal) A1
    ∧ V1 m ρ c main_v12 = shapeCast S50000x1 (Host.divf (F := Ideal) (φ := .f32) (val_main_v18 (F := Ideal)) (val_main_v19 (F := Ideal) A1)) shapeCasts_S50000_S50000x1
    ∧ V1 m ρ c main_v25 = shapeCast S1x256 A3 shapeCasts_S256_S1x256 := by
  have e0 : A0 = W0 m ρ c (Proc.devRef .tc main_arg0) := rfl
  have e1 : A1 = W0 m ρ c (Proc.devRef .tc main_arg1) := rfl
  have e3 : A3 = W0 m ρ c (Proc.devRef .tc main_arg3) := rfl
  rw [e0, e1, e3]
  show StableHlo.after hostOps0 (W0 m ρ c) (Proc.devRef .tc main_v24) = _
    ∧ StableHlo.after hostOps0 (W0 m ρ c) (Proc.devRef .tc main_v1) = _
    ∧ StableHlo.after hostOps0 (W0 m ρ c) (Proc.devRef .tc main_v3) = _
    ∧ StableHlo.after hostOps0 (W0 m ρ c) (Proc.devRef .tc main_v12) = _
    ∧ StableHlo.after hostOps0 (W0 m ρ c) (Proc.devRef .tc main_v25) = _
  generalize W0 m ρ c = W
  dsimp only [hostOps0]
  after_results_simp
  exact ⟨rfl, rfl, rfl, rfl, rfl⟩

/-- A column laid out from the vector `1 / D`, read at row `n`. -/
theorem inv_column_apply (D : (⟨Cert.ReferenceIdeal.S50000, .f32⟩ : BufTy).Contents (Elt Ideal)) (n : Fin 50000) :
    shapeCast S50000x1 (Host.divf (F := Ideal) (φ := .f32) (val_main_v18 (F := Ideal)) D) shapeCasts_S50000_S50000x1 (ix2 n 0)
      = Ideal.div 1 (D (ix1 n)) := by
  rw [shapeCast_apply _ shapeCasts_S50000_S50000x1 (ix2 n 0) (ix1 n)
    (by rewrite [Shape.rowMajor_val_two, Shape.rowMajor_val_one]; show n.val = n.val * 1 + 0; omega)]
  have hdiv : Host.divf (F := Ideal) (φ := .f32) (val_main_v18 (F := Ideal)) D (ix1 n)
      = Ideal.div (val_main_v18 (F := Ideal) (ix1 n)) (D (ix1 n)) := rfl
  have hone : val_main_v18 (F := Ideal) (ix1 n) = (1 : EReal) := by
    rw [Cert.ReferenceIdeal.Read.val_main_v18_apply, Cert.ReferenceIdeal.Read.val_main_cst_3_apply, Ideal.ofBits_def]
    exact Cert.Sage.ofBits_one_f32
  rw [hdiv, hone]

/-- The column of reciprocal degrees at node `n`. -/
theorem V1_inv_apply (n : Fin 50000) : V1 m ρ c main_v12 (ix2 n 0) = Cert.Sage.inv A1 n := by
  have h := (V1_computed m ρ c).2.2.2.1
  unfold Cert.Sage.inv
  generalize val_main_v19 (F := Ideal) A1 = D at h ⊢
  rw [h]
  exact inv_column_apply D n

/-- The bias row at channel `k`. -/
theorem V1_bias_apply (k : Fin 256) : V1 m ρ c main_v25 (ix2 0 k) = A3 (ix1 k) := by
  rw [(V1_computed m ρ c).2.2.2.2]
  exact shapeCast_apply _ shapeCasts_S256_S1x256 (ix2 0 k) (ix1 k)
    (by rewrite [Shape.rowMajor_val_two, Shape.rowMajor_val_one]; show k.val = 0 * 256 + k.val; omega)

/-- The hidden layer the first region computes is the kernel's hidden layer of the arguments. -/
theorem hid_entry : Reg0.hidOf (V1 m ρ) c = hidK A0 A1 A2 A3 A4 := by
  unfold Reg0.hidOf hidK
  rw [(V1_computed m ρ c).1, V1_arg0, V1_arg2, V1_arg4,
    show (fun n => V1 m ρ c main_v12 (ix2 n 0)) = inv A1 from funext (V1_inv_apply m ρ c),
    show (fun k => V1 m ρ c main_v25 (ix2 0 k)) = (fun k => A3 (ix1 k)) from funext (V1_bias_apply m ρ c)]

/-! ## At the first region's exit -/

/-- The first region's two outputs. -/
theorem V2_hw : V2 m ρ c main_v26_0 = hwK A0 A1 A2 A3 A4 A5 := by
  refine ((W2_arr m ρ c 8).trans (Reg0.final8 (V1 m ρ) c)).trans ?_
  unfold hwK
  rw [hid_entry, V1_arg5]
theorem V2_hr : V2 m ρ c main_v26_1 = hrK A0 A1 A2 A3 A4 A7 := by
  refine ((W2_arr m ρ c 9).trans (Reg0.final9 (V1 m ρ) c)).trans ?_
  unfold hrK
  rw [hid_entry, V1_arg7]

/-- What the first region only reads, or does not touch, it leaves. -/
theorem V2_v12 : V2 m ρ c main_v12 = V1 m ρ c main_v12 :=
  (W2_arr m ρ c 1).trans (((dat0 (V1 m ρ) c).arrAt_in 1 rfl _).trans (A_eq0 (V1 m ρ) c 1))
theorem V2_v1 : V2 m ρ c main_v1 = V1 m ρ c main_v1 := W2_of_ne m ρ c main_v1 (by decide)
theorem V2_v3 : V2 m ρ c main_v3 = V1 m ρ c main_v3 := W2_of_ne m ρ c main_v3 (by decide)
theorem V2_arg6 : V2 m ρ c main_arg6 = V1 m ρ c main_arg6 := W2_of_ne m ρ c main_arg6 (by decide)

/-! ## At the second region's entry -/

theorem V3_v12 : V3 m ρ c main_v12 = V2 m ρ c main_v12 := by
  show StableHlo.after hostOps1 (W2 m ρ c) (Proc.devRef .tc main_v12) = _; not_written hostOps1
theorem V3_hr : V3 m ρ c main_v26_1 = V2 m ρ c main_v26_1 := by
  show StableHlo.after hostOps1 (W2 m ρ c) (Proc.devRef .tc main_v26_1) = _; not_written hostOps1
theorem V3_v1 : V3 m ρ c main_v1 = V2 m ρ c main_v1 := by
  show StableHlo.after hostOps1 (W2 m ρ c) (Proc.devRef .tc main_v1) = _; not_written hostOps1
theorem V3_v3 : V3 m ρ c main_v3 = V2 m ρ c main_v3 := by
  show StableHlo.after hostOps1 (W2 m ρ c) (Proc.devRef .tc main_v3) = _; not_written hostOps1

set_option maxHeartbeats 4000000 in
/-- The middle stretch takes the neighbour sum of the first output and lays the second bias out as a row. -/
theorem V3_computed :
    V3 m ρ c main_v37 = nbr A1 (hwK A0 A1 A2 A3 A4 A5)
    ∧ V3 m ρ c main_v38 = shapeCast S1x128 A6 shapeCasts_S128_S1x128 := by
  have h1 : W2 m ρ c (Proc.devRef .tc main_v1) = val_main_v1 (F := Ideal) A1 := (V2_v1 m ρ c).trans (V1_computed m ρ c).2.1
  have h3 : W2 m ρ c (Proc.devRef .tc main_v3) = val_main_v3 (F := Ideal) A1 := (V2_v3 m ρ c).trans (V1_computed m ρ c).2.2.1
  have h6 : W2 m ρ c (Proc.devRef .tc main_arg6) = A6 := (V2_arg6 m ρ c).trans (V1_arg6 m ρ c)
  have hw : W2 m ρ c (Proc.devRef .tc main_v26_0) = hwK A0 A1 A2 A3 A4 A5 := V2_hw m ρ c
  show StableHlo.after hostOps1 (W2 m ρ c) (Proc.devRef .tc main_v37) = _
    ∧ StableHlo.after hostOps1 (W2 m ρ c) (Proc.devRef .tc main_v38) = _
  generalize W2 m ρ c = W at h1 h3 h6 hw ⊢
  dsimp only [hostOps1]
  after_results_simp
  rw [h1, h3, h6, hw]
  exact ⟨rfl, rfl⟩

/-- The second bias row at channel `q`. -/
theorem V3_bias_apply (q : Fin 128) : V3 m ρ c main_v38 (ix2 0 q) = A6 (ix1 q) := by
  rw [(V3_computed m ρ c).2]
  exact shapeCast_apply _ shapeCasts_S128_S1x128 (ix2 0 q) (ix1 q)
    (by rewrite [Shape.rowMajor_val_two, Shape.rowMajor_val_one]; show q.val = 0 * 128 + q.val; omega)

/-! ## At the second region's exit, and the result -/

/-- The second region writes the kernel's node embeddings. -/
theorem V4_z : V4 m ρ c main_v39 = zK A0 A1 A2 A3 A4 A5 A6 A7 := by
  refine ((W4_arr m ρ c 4).trans (Reg1.final4 (V3 m ρ) c)).trans ?_
  unfold zK
  rw [(V3_computed m ρ c).1, V3_hr, V2_hr,
    show (fun n => V3 m ρ c main_v12 (ix2 n 0)) = inv A1 from
      funext fun n => by rw [V3_v12, V2_v12]; exact V1_inv_apply m ρ c n,
    show (fun q => V3 m ρ c main_v38 (ix2 0 q)) = (fun q => A6 (ix1 q)) from funext (V3_bias_apply m ρ c)]

theorem V4_v1 : V4 m ρ c main_v1 = V3 m ρ c main_v1 := W4_of_ne m ρ c main_v1 (by decide)
theorem V4_v3 : V4 m ρ c main_v3 = V3 m ρ c main_v3 := W4_of_ne m ρ c main_v3 (by decide)

set_option maxHeartbeats 4000000 in
/-- THE RESULT: the decode of the kernel's node embeddings. -/
theorem result : W5 m ρ c (Proc.devRef .tc main_v63) = decode A1 (zK A0 A1 A2 A3 A4 A5 A6 A7) := by
  have h1 : W4 m ρ c (Proc.devRef .tc main_v1) = val_main_v1 (F := Ideal) A1 :=
    (((V4_v1 m ρ c).trans (V3_v1 m ρ c)).trans (V2_v1 m ρ c)).trans (V1_computed m ρ c).2.1
  have h3 : W4 m ρ c (Proc.devRef .tc main_v3) = val_main_v3 (F := Ideal) A1 :=
    (((V4_v3 m ρ c).trans (V3_v3 m ρ c)).trans (V2_v3 m ρ c)).trans (V1_computed m ρ c).2.2.1
  have hz : W4 m ρ c (Proc.devRef .tc main_v39) = zK A0 A1 A2 A3 A4 A5 A6 A7 := V4_z m ρ c
  show StableHlo.after hostOps2 (W4 m ρ c) (Proc.devRef .tc main_v63) = _
  generalize W4 m ρ c = W at h1 h3 hz ⊢
  dsimp only [hostOps2]
  after_results_simp
  rw [h1, h3, hz]
  rfl

end Cert.KernelIdeal.Host

end
-- ==== Proof.Finite.lean ====
/-
  The precondition says every float input is finite: each entry's absolute value is below +∞.  So each entry
  of the seven float arguments is a real number.
-/
import proofs.«407070_j89043261981499_3_alg».proof.Pre_finite_inputs
import proofs.«407070_j89043261981499_3_alg».proof.Proof.Gen.Pre_finite_inputs
import proofs.«407070_j89043261981499_3_alg».proof.Proof.Algebra
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic Cert.Sage

/-- The rank-0 shape has exactly one index. -/
private instance subsingleton_scalar_idx : Subsingleton S_.Idx := ⟨fun a b => funext fun d => d.elim0⟩

/-- A one-bit word made from a Boolean is 1 exactly when the Boolean is true. -/
private theorem ofBool_eq_one {b : Bool} : BitVec.ofBool b = 1#1 ↔ b = true := by cases b <;> decide

/-- The single-precision pattern `0x7F800000` denotes +∞. -/
private theorem ofBits_inf_f32 : Ideal.ofBits .f32 0x7F800000#32 = (⊤ : EReal) := by
  simp [Ideal.ofBits, Ideal.ieee]

/-- An extended real whose absolute value `max x (-x)` compares below +∞ is a real number: at `⊥` and at `⊤`
    the absolute value is `⊤`. -/
private theorem isR_of_abs_olt_inf (x : EReal)
    (h : FloatOps.cmpf (F := Ideal) (φ := .f32) .olt (FloatOps.hostAbsf (F := Ideal) (φ := .f32) x)
      (Ideal.ofBits .f32 0x7F800000#32) = 1#1) : IsR x := by
  rw [Ideal.hostAbsf_def, Ideal.cmpf_def, Ideal.absf_def, ofBits_inf_f32] at h
  have hlt : max x (-x) < (⊤ : EReal) := of_decide_eq_true (ofBool_eq_one.1 h)
  induction x using EReal.rec with
  | bot => simp at hlt
  | coe r => exact ⟨r, rfl⟩
  | top => simp at hlt

/-- A conjunction of two one-bit vectors that is 1 at an index has both conjuncts 1 there. -/
private theorem andi_vec_eq_one {s : Shape} (a b : IVec s 1) (i : s.Idx) (h : andi a b i = 1#1) :
    a i = 1#1 ∧ b i = 1#1 :=
  (IntOp.andi_eq_one (c := a i) (d := b i)).1 h

/-- If the conjunction over all entries of "`|x| < +∞`" is 1, every entry of `x` is a real number. -/
private theorem isR_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
      (cmpf .olt (Host.absf x) (broadcastInDim s ![] hb (constant (F := Ideal) S_ .f32 0x7F800000#32))) init hr hu j
        = 1#1) :
    ∀ i, IsR (x i) := by
  intro i
  have hi := Host.reduce_andi_all _ init hr hu j e i
  exact isR_of_abs_olt_inf (x i) hi

/-- Under the precondition every entry of every float argument is a real number. -/
theorem isR_of_pre (x0 : FVec Ideal S50000x128 .f32) (x1 : IVec S2x800000 32) (x2 : FVec Ideal S128x256 .f32)
    (x3 : FVec Ideal S256 .f32) (x4 : FVec Ideal S128x256 .f32) (x5 : FVec Ideal S256x128 .f32)
    (x6 : FVec Ideal S128 .f32) (x7 : FVec Ideal S256x128 .f32)
    (h : Cert.Pre_finite_inputs.fn (F := Ideal) x0 x1 x2 x3 x4 x5 x6 x7 = fun _ => 1#1) :
    (∀ i, IsR (x0 i)) ∧ (∀ i, IsR (x2 i)) ∧ (∀ i, IsR (x3 i)) ∧ (∀ i, IsR (x4 i)) ∧ (∀ i, IsR (x5 i))
      ∧ (∀ i, IsR (x6 i)) ∧ (∀ i, IsR (x7 i)) := by
  -- the result has one index; read the claim there and open the chain of operations
  have h0 := congrFun h (fun d => d.elim0)
  dsimp only [fn, fn_part1] at h0
  -- the result is the conjunction of seven all-reductions, joined from the left
  obtain ⟨h6, e7⟩ := andi_vec_eq_one _ _ _ h0
  obtain ⟨h5, e6⟩ := andi_vec_eq_one _ _ _ h6
  obtain ⟨h4, e5⟩ := andi_vec_eq_one _ _ _ h5
  obtain ⟨h3, e4⟩ := andi_vec_eq_one _ _ _ h4
  obtain ⟨h2, e3⟩ := andi_vec_eq_one _ _ _ h3
  obtain ⟨e1, e2⟩ := andi_vec_eq_one _ _ _ h2
  exact ⟨isR_of_all x0 _ _ _ _ _ e1, isR_of_all x2 _ _ _ _ _ e2, isR_of_all x3 _ _ _ _ _ e3,
    isR_of_all x4 _ _ _ _ _ e4, isR_of_all x5 _ _ _ _ _ e5, isR_of_all x6 _ _ _ _ _ e6,
    isR_of_all x7 _ _ _ _ _ e7⟩

end Cert.Pre_finite_inputs.Finite

end
-- ==== Proof.LibRowGatherScatter.lean ====
/-
  Whole rows gathered from, and scatter-added into, a two-dimensional table, read at an index.

  `table[idx]` over an [N, C] table with an [E, 1] column of start indices takes row `e` of the result from the
  table's row named by start index `e`, read signed and clamped into the table.  The accumulating scatter of
  [E, C] updates into an [N, C] operand adds update row `e` to the operand's row named by start index `e`,
  read signed and NOT clamped: an update whose row is outside the operand is dropped.  So at the exact
  instance the scatter at `(n, q)` is the operand there plus the sum, over the update rows that land on
  `n`, of their column `q`.  The same for a rank-one operand with one update element per start index.
-/
import Idealize.ShloMosaic.PureOps.Ideal
import Idealize.ShloMosaic.PureOps.Ideal.Laws
import Idealize.ShloMosaic.Lib.ValueIdx

noncomputable section

namespace Cert.Lib.RowOps

open Idealize.ShloMosaic Idealize.ShloMosaic.ValueIdx

variable {N C E w : Nat}

/-- The table row start index `e` names: read signed, clamped into `[0, N − 1]`. -/
def clampRow (hN : 0 < N) (idx : IVec ⟨2, ![E, 1]⟩ w) (e : Fin E) : Fin N :=
  ⟨min (idx (ix2 e 0)).toInt.toNat (N - 1), by omega⟩

/-- The update rows whose start index, read signed and not clamped, is exactly row `n`. -/
def hits (idx : IVec ⟨2, ![E, 1]⟩ w) (n : Fin N) : Finset (Fin E) :=
  Finset.univ.filter fun e => (idx (ix2 e 0)).toInt = (n.val : ℤ)

/-- A gather of whole rows at `(e, q)`: the table at the clamped row of start index `e`, column `q`. -/
theorem gather_rows_apply {α : Type} (hN : 0 < N) (d : GatherDims ⟨2, ![N, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hsl : d.sliceSizes = ![1, C])
    (x : (⟨2, ![N, C]⟩ : Shape).Idx → α) (idx : IVec ⟨2, ![E, 1]⟩ w) (e : Fin E) (q : Fin C) :
    Host.gather d x idx (ix2 e q) = x (ix2 (clampRow hN idx e) q) := by
  obtain ⟨od, cd, ob, sb, sim, ivd, ss, wf⟩ := d
  simp only at hoff hcoll hob hsb hsim hivd hsl
  subst hoff hcoll hob hsb hsim hivd hsl
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ c, GatherDims.siIdx (⟨[1], [0], [], [], [0], 1, ![1, C], wf⟩ :
        GatherDims ⟨2, ![N, C]⟩ ⟨2, ![E, 1]⟩ ⟨2, ![E, C]⟩) (ix2 e q) c = ix2 e 0 := by
      intro c; funext b; refine Fin.ext ?_
      match b with
      | ⟨0, _⟩ => rfl
      | ⟨1, _⟩ => exact Nat.lt_one_iff.mp c.isLt
    rw [hsi]
    rfl
  | ⟨1, _⟩ =>
    show GatherDims.start _ _ idx 1 + GatherDims.batchCoord _ _ 1 + GatherDims.offCoord _ _ 1 = q.val
    rw [GatherDims.batchCoord_eq_zero _ _ _ List.not_mem_nil]
    unfold GatherDims.start
    rw [dif_neg (show (1 : Fin 2) ∉ [(0 : Fin 2)] by decide)]
    unfold GatherDims.offCoord
    rw [dif_pos ((GatherDims.mem_sKept _ _).mpr ⟨show (1 : Fin 2) ∉ [(0 : Fin 2)] by decide, List.not_mem_nil⟩)]
    simp only [Nat.zero_add]
    rfl

/-- On the scattered axis the window of update row `e` starts at start index `e`, read signed. -/
private theorem start_rows_zero (d : ScatterDims ⟨2, ![N, C]⟩ ⟨2, ![E, 1]⟩ ⟨2, ![E, C]⟩)
    (huw : d.updateWindowDims = [1]) (hsd : d.scatterDimsToOperandDims = [0]) (hivd : d.indexVectorDim = 1)
    (idx : IVec ⟨2, ![E, 1]⟩ w) (e : Fin E) (q' : Fin C) :
    d.start (ix2 e q') idx 0 = (idx (ix2 e 0)).toInt := by
  obtain ⟨uw, ins, sd, ivd, wf⟩ := d
  simp only at huw hsd hivd
  subst huw hsd hivd
  have hsi : ∀ c, ScatterDims.siIdx (⟨[1], ins, [0], 1, wf⟩ :
      ScatterDims ⟨2, ![N, C]⟩ ⟨2, ![E, 1]⟩ ⟨2, ![E, C]⟩) (ix2 e q') c = ix2 e 0 := by
    intro c; funext b; refine Fin.ext ?_
    match b with
    | ⟨0, _⟩ => rfl
    | ⟨1, _⟩ => exact Nat.lt_one_iff.mp c.isLt
  unfold ScatterDims.start
  rw [dif_pos (List.mem_singleton.mpr rfl), hsi]

/-- On the window axis the start is zero: the map does not name it. -/
private theorem start_rows_one (d : ScatterDims ⟨2, ![N, C]⟩ ⟨2, ![E, 1]⟩ ⟨2, ![E, C]⟩)
    (hsd : d.scatterDimsToOperandDims = [0])
    (idx : IVec ⟨2, ![E, 1]⟩ w) (j : (⟨2, ![E, C]⟩ : Shape).Idx) :
    d.start j idx 1 = 0 := by
  unfold ScatterDims.start
  rw [dif_neg (by rw [hsd]; exact (show (1 : Fin 2) ∉ [(0 : Fin 2)] by decide))]

/-- The inserted axis has window coordinate zero. -/
private theorem window_rows_zero (d : ScatterDims ⟨2, ![N, C]⟩ ⟨2, ![E, 1]⟩ ⟨2, ![E, C]⟩)
    (hins : d.insertedWindowDims = [0]) (j : (⟨2, ![E, C]⟩ : Shape).Idx) :
    d.window j 0 = 0 := by
  unfold ScatterDims.window
  rw [dif_neg (by rw [ScatterDims.sKept, hins]; simp [Shape.kept])]

/-- The kept axis has the update's column as window coordinate. -/
private theorem window_rows_one (d : ScatterDims ⟨2, ![N, C]⟩ ⟨2, ![E, 1]⟩ ⟨2, ![E, C]⟩)
    (huw : d.updateWindowDims = [1]) (hins : d.insertedWindowDims = [0]) (e : Fin E) (q' : Fin C) :
    d.window (ix2 e q') 1 = q'.val := by
  obtain ⟨uw, ins, sd, ivd, wf⟩ := d
  simp only at huw hins
  subst huw hins
  unfold ScatterDims.window
  rw [dif_pos (show (1 : Fin 2) ∈ (⟨2, ![N, C]⟩ : Shape).kept [(0 : Fin 2)] by simp [Shape.kept, List.mem_filter, List.mem_finRange])]
  rfl

/-- Where update element `(e, q')` of a whole-row scatter lands. -/
private theorem resultIdx_rows_eq_some_iff (d : ScatterDims ⟨2, ![N, C]⟩ ⟨2, ![E, 1]⟩ ⟨2, ![E, C]⟩)
    (huw : d.updateWindowDims = [1]) (hins : d.insertedWindowDims = [0]) (hsd : d.scatterDimsToOperandDims = [0])
    (hivd : d.indexVectorDim = 1) (idx : IVec ⟨2, ![E, 1]⟩ w) (e : Fin E) (q' : Fin C) (n : Fin N) (q : Fin C) :
    d.resultIdx? (ix2 e q') idx = some (ix2 n q) ↔ (idx (ix2 e 0)).toInt = (n.val : ℤ) ∧ q' = q := by
  have hs0 := start_rows_zero d huw hsd hivd idx e q'
  have hs1 := start_rows_one d hsd idx (ix2 e q')
  have hw0 := window_rows_zero d hins (ix2 e q')
  have hw1 := window_rows_one d huw hins e q'
  unfold ScatterDims.resultIdx?
  constructor
  · intro h
    split at h
    · next hh =>
      have hf := Option.some.inj h
      have h0 := congrArg Fin.val (congrFun hf 0)
      have h1 := congrArg Fin.val (congrFun hf 1)
      change (d.start (ix2 e q') idx 0 + ((d.window (ix2 e q') 0 : Nat) : Int)).toNat = n.val at h0
      change (d.start (ix2 e q') idx 1 + ((d.window (ix2 e q') 1 : Nat) : Int)).toNat = q.val at h1
      have hh0 := (hh 0).1
      rw [hs0, hw0] at h0 hh0
      rw [hs1, hw1] at h1
      exact ⟨by omega, Fin.ext (by omega)⟩
    · exact absurd h (by simp)
  · rintro ⟨h0, rfl⟩
    have hh : ∀ a, 0 ≤ d.start (ix2 e q') idx a + ((d.window (ix2 e q') a : Nat) : Int) ∧
        d.start (ix2 e q') idx a + ((d.window (ix2 e q') a : Nat) : Int) < (((⟨2, ![N, C]⟩ : Shape).size a : Nat) : Int) := by
      intro a
      match a with
      | ⟨0, _⟩ =>
        show 0 ≤ d.start (ix2 e q') idx 0 + ((d.window (ix2 e q') 0 : Nat) : Int) ∧
          d.start (ix2 e q') idx 0 + ((d.window (ix2 e q') 0 : Nat) : Int) < ((N : Nat) : Int)
        rw [hs0, hw0, h0]
        have := n.isLt
        omega
      | ⟨1, _⟩ =>
        show 0 ≤ d.start (ix2 e q') idx 1 + ((d.window (ix2 e q') 1 : Nat) : Int) ∧
          d.start (ix2 e q') idx 1 + ((d.window (ix2 e q') 1 : Nat) : Int) < ((C : Nat) : Int)
        rw [hs1, hw1]
        have := q'.isLt
        omega
    rw [dif_pos hh]
    congr 1
    funext a
    refine Fin.ext ?_
    match a with
    | ⟨0, _⟩ =>
      show (d.start (ix2 e q') idx 0 + ((d.window (ix2 e q') 0 : Nat) : Int)).toNat = n.val
      rw [hs0, hw0, h0]
      omega
    | ⟨1, _⟩ =>
      show (d.start (ix2 e q') idx 1 + ((d.window (ix2 e q') 1 : Nat) : Int)).toNat = q'.val
      rw [hs1, hw1]
      omega

/-- Membership in `hits`: the signed start index is the row. -/
private theorem mem_hits (idx : IVec ⟨2, ![E, 1]⟩ w) (n : Fin N) (e : Fin E) :
    e ∈ hits idx n ↔ (idx (ix2 e 0)).toInt = (n.val : ℤ) := by
  unfold hits
  rw [Finset.mem_filter]
  exact ⟨fun h => h.2, fun h => ⟨Finset.mem_univ _, h⟩⟩

/-- An accumulating scatter of whole rows at `(n, q)`, at the exact instance. -/
theorem scatterAdd_rows_apply (d : ScatterDims ⟨2, ![N, C]⟩ ⟨2, ![E, 1]⟩ ⟨2, ![E, C]⟩)
    (huw : d.updateWindowDims = [1]) (hins : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (n : Fin N) (q : Fin C) :
    Ideal.hostScatterAdd d x idx upd (ix2 n q) = x (ix2 n q) + ∑ e ∈ hits idx n, upd (ix2 e q) := by
  unfold Ideal.hostScatterAdd
  congr 1
  have hchar := resultIdx_rows_eq_some_iff d huw hins hsd hivd idx
  have hland : ∀ j : (⟨2, ![E, C]⟩ : Shape).Idx, d.resultIdx? j idx = some (ix2 n q) →
      (idx (ix2 (j 0) 0)).toInt = (n.val : ℤ) ∧ j = ix2 (j 0) q := by
    intro j hj
    rw [eq_ix2 j] at hj
    have h := (hchar (j 0) (j 1) n q).1 hj
    refine ⟨h.1, ?_⟩
    rw [← h.2]
    exact eq_ix2 j
  refine Finset.sum_bij' (fun j _ => j 0) (fun e _ => ix2 e q) ?_ ?_ ?_ ?_ ?_
  · intro j hj
    exact (mem_hits idx n _).2 (hland j (Finset.mem_filter.1 hj).2).1
  · intro e he
    exact Finset.mem_filter.2 ⟨Finset.mem_univ _, (hchar e q n q).2 ⟨(mem_hits idx n e).1 he, rfl⟩⟩
  · intro j hj
    exact (hland j (Finset.mem_filter.1 hj).2).2.symm
  · intro e he
    rfl
  · intro j hj
    exact congrArg upd (hland j (Finset.mem_filter.1 hj).2).2

/-- The window of update element `e` of a vector scatter starts at start index `e`, read signed. -/
private theorem start_vec_zero (d : ScatterDims ⟨1, ![N]⟩ ⟨2, ![E, 1]⟩ ⟨1, ![E]⟩)
    (huw : d.updateWindowDims = []) (hsd : d.scatterDimsToOperandDims = [0]) (hivd : d.indexVectorDim = 1)
    (idx : IVec ⟨2, ![E, 1]⟩ w) (e : Fin E) :
    d.start (ix1 e) idx 0 = (idx (ix2 e 0)).toInt := by
  obtain ⟨uw, ins, sd, ivd, wf⟩ := d
  simp only at huw hsd hivd
  subst huw hsd hivd
  have hsi : ∀ c, ScatterDims.siIdx (⟨[], ins, [0], 1, wf⟩ :
      ScatterDims ⟨1, ![N]⟩ ⟨2, ![E, 1]⟩ ⟨1, ![E]⟩) (ix1 e) c = ix2 e 0 := by
    intro c; funext b; refine Fin.ext ?_
    match b with
    | ⟨0, _⟩ => rfl
    | ⟨1, _⟩ => exact Nat.lt_one_iff.mp c.isLt
  unfold ScatterDims.start
  rw [dif_pos (List.mem_singleton.mpr rfl), hsi]

/-- The one operand axis of a vector scatter is inserted: its window coordinate is zero. -/
private theorem window_vec_zero (d : ScatterDims ⟨1, ![N]⟩ ⟨2, ![E, 1]⟩ ⟨1, ![E]⟩)
    (hins : d.insertedWindowDims = [0]) (j : (⟨1, ![E]⟩ : Shape).Idx) :
    d.window j 0 = 0 := by
  unfold ScatterDims.window
  rw [dif_neg (by rw [ScatterDims.sKept, hins]; simp [Shape.kept])]

/-- Where update element `e` of a vector scatter lands. -/
private theorem resultIdx_vec_eq_some_iff (d : ScatterDims ⟨1, ![N]⟩ ⟨2, ![E, 1]⟩ ⟨1, ![E]⟩)
    (huw : d.updateWindowDims = []) (hins : d.insertedWindowDims = [0]) (hsd : d.scatterDimsToOperandDims = [0])
    (hivd : d.indexVectorDim = 1) (idx : IVec ⟨2, ![E, 1]⟩ w) (e : Fin E) (n : Fin N) :
    d.resultIdx? (ix1 e) idx = some (ix1 n) ↔ (idx (ix2 e 0)).toInt = (n.val : ℤ) := by
  have hs0 := start_vec_zero d huw hsd hivd idx e
  have hw0 := window_vec_zero d hins (ix1 e)
  unfold ScatterDims.resultIdx?
  constructor
  · intro h
    split at h
    · next hh =>
      have hf := Option.some.inj h
      have h0 := congrArg Fin.val (congrFun hf 0)
      change (d.start (ix1 e) idx 0 + ((d.window (ix1 e) 0 : Nat) : Int)).toNat = n.val at h0
      have hh0 := (hh 0).1
      rw [hs0, hw0] at h0 hh0
      omega
    · exact absurd h (by simp)
  · intro h0
    have hh : ∀ a, 0 ≤ d.start (ix1 e) idx a + ((d.window (ix1 e) a : Nat) : Int) ∧
        d.start (ix1 e) idx a + ((d.window (ix1 e) a : Nat) : Int) < (((⟨1, ![N]⟩ : Shape).size a : Nat) : Int) := by
      intro a
      match a with
      | ⟨0, _⟩ =>
        show 0 ≤ d.start (ix1 e) idx 0 + ((d.window (ix1 e) 0 : Nat) : Int) ∧
          d.start (ix1 e) idx 0 + ((d.window (ix1 e) 0 : Nat) : Int) < ((N : Nat) : Int)
        rw [hs0, hw0, h0]
        have := n.isLt
        omega
    rw [dif_pos hh]
    congr 1
    funext a
    refine Fin.ext ?_
    match a with
    | ⟨0, _⟩ =>
      show (d.start (ix1 e) idx 0 + ((d.window (ix1 e) 0 : Nat) : Int)).toNat = n.val
      rw [hs0, hw0, h0]
      omega

/-- An accumulating scatter of single elements into a vector at `n`, at the exact instance. -/
theorem scatterAdd_vec_apply (d : ScatterDims ⟨1, ![N]⟩ ⟨2, ![E, 1]⟩ ⟨1, ![E]⟩)
    (huw : d.updateWindowDims = []) (hins : d.insertedWindowDims = [0]) (hsd : d.scatterDimsToOperandDims = [0])
    (hivd : d.indexVectorDim = 1)
    (x : (⟨1, ![N]⟩ : Shape).Idx → EReal) (idx : IVec ⟨2, ![E, 1]⟩ w) (upd : (⟨1, ![E]⟩ : Shape).Idx → EReal)
    (n : Fin N) :
    Ideal.hostScatterAdd d x idx upd (ix1 n) = x (ix1 n) + ∑ e ∈ hits idx n, upd (ix1 e) := by
  unfold Ideal.hostScatterAdd
  congr 1
  have hchar := resultIdx_vec_eq_some_iff d huw hins hsd hivd idx
  refine Finset.sum_bij' (fun j _ => j 0) (fun e _ => ix1 e) ?_ ?_ ?_ ?_ ?_
  · intro j hj
    have h := (Finset.mem_filter.1 hj).2
    rw [eq_ix1 j] at h
    exact (mem_hits idx n _).2 ((hchar (j 0) n).1 h)
  · intro e he
    exact Finset.mem_filter.2 ⟨Finset.mem_univ _, (hchar e n).2 ((mem_hits idx n e).1 he)⟩
  · intro j hj
    exact (eq_ix1 j).symm
  · intro e he
    rfl
  · intro j hj
    exact congrArg upd (eq_ix1 j)

end Cert.Lib.RowOps

end
-- ==== Proof.RefRead.lean ====
/-
  The reference read at an index, stage by stage, down to its neighbour sums.

  `src1` is the column of source nodes (negative ones wrapped once), `dst1` the column of destination nodes.
  The first neighbour sum at `(n, i)` is the sum over the edges whose destination is `n` of the features of
  the edge's (clamped) source; the degree of `n` is the number of such edges and the mean divides by it floored
  at one.  The hidden layer and the second layer are the textbook formulas over those.
-/
import proofs.«407070_j89043261981499_3_alg».proof.Proof.Gen.ReferenceIdeal.Run
import proofs.«407070_j89043261981499_3_alg».proof.Proof.Gen.ReferenceIdeal.Read
import proofs.«407070_j89043261981499_3_alg».proof.Proof.Spec
import proofs.«407070_j89043261981499_3_alg».proof.Proof.LibRowGatherScatter
import proofs.«407070_j89043261981499_3_alg».proof.Proof.Algebra
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefRead

open Cert.ReferenceIdeal Cert.ReferenceIdeal.Gen Cert.ReferenceIdeal.Read Idealize.ShloMosaic Idealize.ShloMosaic.TcCoe
open Idealize.ShloMosaic.ValueIdx Cert.Lib.RowOps

variable (x0 : (⟨S50000x128, .f32⟩ : BufTy).Contents (Elt Ideal)) (x1 : (⟨S2x800000, .i32⟩ : BufTy).Contents (Elt Ideal))
  (x2 : (⟨S128x256, .f32⟩ : BufTy).Contents (Elt Ideal)) (x3 : (⟨S256, .f32⟩ : BufTy).Contents (Elt Ideal))
  (x4 : (⟨S128x256, .f32⟩ : BufTy).Contents (Elt Ideal)) (x5 : (⟨S256x128, .f32⟩ : BufTy).Contents (Elt Ideal))
  (x6 : (⟨S128, .f32⟩ : BufTy).Contents (Elt Ideal)) (x7 : (⟨S256x128, .f32⟩ : BufTy).Contents (Elt Ideal))

/-- The column of source nodes, and the column of destination nodes. -/
abbrev src1 : IVec S800000x1 32 := val_main_v9 (F := Ideal) x1
abbrev dst1 : IVec S800000x1 32 := val_main_v12 (F := Ideal) x1

/-- Every later copy of the two columns is the first. -/
theorem src_again : val_main_v35 (F := Ideal) x1 = src1 x1 ∧ val_main_v60 (F := Ideal) x1 = src1 x1 := ⟨rfl, rfl⟩
theorem dst_again : val_main_v16 (F := Ideal) x1 = dst1 x1 ∧ val_main_v38 (F := Ideal) x1 = dst1 x1
    ∧ val_main_v42 (F := Ideal) x1 = dst1 x1 := ⟨rfl, rfl, rfl⟩
/-- The degrees are computed twice, the same way. -/
theorem deg_again : val_main_v45 (F := Ideal) x1 = val_main_v19 (F := Ideal) x1 := rfl

/-- The constant stages: the zero tables the sums start from, and the tables of ones. -/
private theorem zero11 (j : S50000x128.Idx) : (val_main_v11 (F := Ideal) j : EReal) = 0 := by
  rw [val_main_v11_apply, val_main_cst_apply]; exact Ideal.ofBits_zero_f32
private theorem zero15 (j : S50000.Idx) : (val_main_v15 (F := Ideal) j : EReal) = 0 := by
  rw [val_main_v15_apply, val_main_cst_2_apply]; exact Ideal.ofBits_zero_f32
private theorem zero37 (j : S50000x256.Idx) : (val_main_v37 (F := Ideal) j : EReal) = 0 := by
  rw [val_main_v37_apply, val_main_cst_6_apply]; exact Ideal.ofBits_zero_f32
private theorem zeroRelu (j : S50000x256.Idx) : (val_main_call0_v0 (F := Ideal) j : EReal) = 0 := by
  rw [val_main_call0_v0_apply, val_main_call0_cst_apply]; exact Ideal.ofBits_zero_f32
private theorem one14 (j : S800000.Idx) : (val_main_v14 (F := Ideal) j : EReal) = 1 := by
  rw [val_main_v14_apply, val_main_cst_1_apply]; exact Cert.Sage.ofBits_one_f32
private theorem one18 (j : S50000.Idx) : (val_main_v18 (F := Ideal) j : EReal) = 1 := by
  rw [val_main_v18_apply, val_main_cst_3_apply]; exact Cert.Sage.ofBits_one_f32

/-- At the exact instance the host's accumulating scatter is the exact sum. -/
private theorem scatterAdd_ideal {s si su : Shape} {w : Nat} (d : ScatterDims s si su) (x : FVec Ideal s .f32) (idx : IVec si w)
    (upd : FVec Ideal su .f32) : Host.scatterAdd d x idx upd = Ideal.hostScatterAdd d x idx upd := rfl

/-- The floored degree of node `n`. -/
theorem deg_apply (n : Fin 50000) :
    val_main_v19 (F := Ideal) x1 (ix1 n) = max (0 + ∑ _e ∈ hits (dst1 x1) n, (1 : EReal)) 1 := by
  have h : (val_main_v17 (F := Ideal) x1 (ix1 n) : EReal) = 0 + ∑ _e ∈ hits (dst1 x1) n, (1 : EReal) := by
    unfold val_main_v17
    rw [scatterAdd_ideal, scatterAdd_vec_apply _ rfl rfl rfl rfl, zero15, (dst_again x1).1]
    simp only [one14]
  rw [val_main_v19_apply, Ideal.maximumf_def, one18, h]

/-- The first neighbour sum. -/
theorem msg1_apply (n : Fin 50000) (i : Fin 128) :
    val_main_v13 (F := Ideal) x0 x1 (ix2 n i)
      = ∑ e ∈ hits (dst1 x1) n, x0 (ix2 (clampRow (N := 50000) (by decide) (src1 x1) e) i) := by
  unfold val_main_v13
  rw [scatterAdd_ideal, scatterAdd_rows_apply _ rfl rfl rfl rfl, zero11, zero_add]
  refine Finset.sum_congr rfl fun e _ => ?_
  unfold val_main_v10
  exact gather_rows_apply (by decide) gather_S50000x128_S800000x1_S800000x128_1_0_n_n_0_1_1128 rfl rfl rfl rfl rfl rfl rfl
    x0 (val_main_v9 (F := Ideal) x1) e i

/-- The composed index maps of the layout stages, at explicit coordinates. -/
private theorem l23 (n : Fin 50000) (k : Fin 256) (i : Fin 128) : lidx_main_v23 (ix2 n k) i = ix2 n i :=
  funext fun a => Fin.ext (by match a with | ⟨0, _⟩ => rfl | ⟨1, _⟩ => rfl)
private theorem r23 (n : Fin 50000) (k : Fin 256) (i : Fin 128) : ridx_main_v23 (ix2 n k) i = ix2 i k :=
  funext fun a => Fin.ext (by match a with | ⟨0, _⟩ => rfl | ⟨1, _⟩ => rfl)
private theorem l27 (n : Fin 50000) (k : Fin 256) (i : Fin 128) : lidx_main_v27 (ix2 n k) i = ix2 n i :=
  funext fun a => Fin.ext (by match a with | ⟨0, _⟩ => rfl | ⟨1, _⟩ => rfl)
private theorem r27 (n : Fin 50000) (k : Fin 256) (i : Fin 128) : ridx_main_v27 (ix2 n k) i = ix2 i k :=
  funext fun a => Fin.ext (by match a with | ⟨0, _⟩ => rfl | ⟨1, _⟩ => rfl)
private theorem i21 (n : Fin 50000) (i : Fin 128) : idx_main_v20 (idx_main_v21 (ix2 n i)) = ix1 n :=
  funext fun a => Fin.ext (by match a with | ⟨0, _⟩ => rfl)
private theorem i25 (n : Fin 50000) (k : Fin 256) : idx_main_v24 (idx_main_v25 (ix2 n k)) = ix1 k :=
  funext fun a => Fin.ext (by match a with | ⟨0, _⟩ => rfl)
private theorem l49 (n : Fin 50000) (q : Fin 128) (k : Fin 256) : lidx_main_v49 (ix2 n q) k = ix2 n k :=
  funext fun a => Fin.ext (by match a with | ⟨0, _⟩ => rfl | ⟨1, _⟩ => rfl)
private theorem r49 (n : Fin 50000) (q : Fin 128) (k : Fin 256) : ridx_main_v49 (ix2 n q) k = ix2 k q :=
  funext fun a => Fin.ext (by match a with | ⟨0, _⟩ => rfl | ⟨1, _⟩ => rfl)
private theorem l53 (n : Fin 50000) (q : Fin 128) (k : Fin 256) : lidx_main_v53 (ix2 n q) k = ix2 n k :=
  funext fun a => Fin.ext (by match a with | ⟨0, _⟩ => rfl | ⟨1, _⟩ => rfl)
private theorem r53 (n : Fin 50000) (q : Fin 128) (k : Fin 256) : ridx_main_v53 (ix2 n q) k = ix2 k q :=
  funext fun a => Fin.ext (by match a with | ⟨0, _⟩ => rfl | ⟨1, _⟩ => rfl)
private theorem i47 (n : Fin 50000) (k : Fin 256) : idx_main_v46 (idx_main_v47 (ix2 n k)) = ix1 n :=
  funext fun a => Fin.ext (by match a with | ⟨0, _⟩ => rfl)
private theorem i51 (n : Fin 50000) (q : Fin 128) : idx_main_v50 (idx_main_v51 (ix2 n q)) = ix1 q :=
  funext fun a => Fin.ext (by match a with | ⟨0, _⟩ => rfl)

/-- The hidden layer. -/
theorem hidden_apply (n : Fin 50000) (k : Fin 256) :
    val_main_v29 (F := Ideal) x0 x1 x2 x3 x4 (ix2 n k)
      = max (((∑ i : Fin 128, Ideal.div (val_main_v13 (F := Ideal) x0 x1 (ix2 n i)) (val_main_v19 (F := Ideal) x1 (ix1 n)) * x2 (ix2 i k))
              + x3 (ix1 k)) + ∑ i : Fin 128, x0 (ix2 n i) * x4 (ix2 i k)) 0 := by
  have e1 : ∀ i : Fin 128, val_main_v22 (F := Ideal) x0 x1 (lidx_main_v23 (ix2 n k) i) * x2 (ridx_main_v23 (ix2 n k) i)
      = Ideal.div (val_main_v13 (F := Ideal) x0 x1 (ix2 n i)) (val_main_v19 (F := Ideal) x1 (ix1 n)) * x2 (ix2 i k) := by
    intro i
    rw [l23, r23, val_main_v22_apply, Ideal.hostDivf_def, val_main_v21_apply, val_main_v20_apply, i21]
  have e2 : ∀ i : Fin 128, x0 (lidx_main_v27 (ix2 n k) i) * x4 (ridx_main_v27 (ix2 n k) i) = x0 (ix2 n i) * x4 (ix2 i k) := by
    intro i
    rw [l27, r27]
  rw [val_main_v29_apply, zeroRelu, Ideal.maximumf_def, val_main_v28_apply, Ideal.addf_def, val_main_v26_apply, Ideal.addf_def,
    val_main_v23_apply, val_main_v27_apply, val_main_v25_apply, val_main_v24_apply, i25,
    Finset.sum_congr rfl fun i _ => e1 i, Finset.sum_congr rfl fun i _ => e2 i]

/-- The second neighbour sum, of hidden rows. -/
theorem msg2_apply (n : Fin 50000) (k : Fin 256) :
    val_main_v39 (F := Ideal) x0 x1 x2 x3 x4 (ix2 n k)
      = ∑ e ∈ hits (dst1 x1) n, val_main_v29 (F := Ideal) x0 x1 x2 x3 x4 (ix2 (clampRow (N := 50000) (by decide) (src1 x1) e) k) := by
  unfold val_main_v39
  rw [scatterAdd_ideal, scatterAdd_rows_apply _ rfl rfl rfl rfl, zero37, zero_add, (dst_again x1).2.1]
  refine Finset.sum_congr rfl fun e _ => ?_
  unfold val_main_v36
  rw [(src_again x1).1]
  exact gather_rows_apply (by decide) gather_S50000x256_S800000x1_S800000x256_1_0_n_n_0_1_1256 rfl rfl rfl rfl rfl rfl rfl
    (val_main_v29 (F := Ideal) x0 x1 x2 x3 x4) (src1 x1) e k

/-- The second layer. -/
theorem z_apply (n : Fin 50000) (q : Fin 128) :
    val_main_v54 (F := Ideal) x0 x1 x2 x3 x4 x5 x6 x7 (ix2 n q)
      = ((∑ k : Fin 256, Ideal.div (val_main_v39 (F := Ideal) x0 x1 x2 x3 x4 (ix2 n k)) (val_main_v19 (F := Ideal) x1 (ix1 n)) * x5 (ix2 k q))
          + x6 (ix1 q)) + ∑ k : Fin 256, val_main_v29 (F := Ideal) x0 x1 x2 x3 x4 (ix2 n k) * x7 (ix2 k q) := by
  have e1 : ∀ k : Fin 256, val_main_v48 (F := Ideal) x0 x1 x2 x3 x4 (lidx_main_v49 (ix2 n q) k) * x5 (ridx_main_v49 (ix2 n q) k)
      = Ideal.div (val_main_v39 (F := Ideal) x0 x1 x2 x3 x4 (ix2 n k)) (val_main_v19 (F := Ideal) x1 (ix1 n)) * x5 (ix2 k q) := by
    intro k
    rw [l49, r49, val_main_v48_apply, Ideal.hostDivf_def, val_main_v47_apply, val_main_v46_apply, i47, deg_again x1]
  have e2 : ∀ k : Fin 256, val_main_v29 (F := Ideal) x0 x1 x2 x3 x4 (lidx_main_v53 (ix2 n q) k) * x7 (ridx_main_v53 (ix2 n q) k)
      = val_main_v29 (F := Ideal) x0 x1 x2 x3 x4 (ix2 n k) * x7 (ix2 k q) := by
    intro k
    rw [l53, r53]
  rw [val_main_v54_apply, Ideal.addf_def, val_main_v52_apply, Ideal.addf_def, val_main_v49_apply, val_main_v53_apply,
    val_main_v51_apply, val_main_v50_apply, i51, Finset.sum_congr rfl fun k _ => e1 k, Finset.sum_congr rfl fun k _ => e2 k]

end Cert.ReferenceIdeal.RefRead

end
-- ==== Proof.Bridge.lean ====
/-
  The kernel's node embeddings are the reference's, when every float input is finite.

  Layer one.  The reference divides the neighbour sum by the floored degree `d`; the kernel multiplies it by
  `1 / d`.  The degree is a count, so `d` is a real at least one and the two agree on every extended real.

  Layer two.  The reference sums the hidden rows of a node's in-neighbours, divides by `d`, and multiplies by
  `w2_l`; the kernel multiplies each hidden row by `w2_l` first, sums those over the in-neighbours, and
  multiplies by `1 / d`.  With every entry a real number (the inputs are finite, and sums, products and maxima
  of reals are reals) this is linearity of the finite sum:
  `(Σ_e Σ_k h(src e, k) · w k q) · (1/d) = Σ_k ((Σ_e h(src e, k)) / d) · w k q`.
  The node's own term `h · w2_r` and the bias are the same on both sides.
-/
import proofs.«407070_j89043261981499_3_alg».proof.Proof.Gen.ReferenceIdeal.Read
import proofs.«407070_j89043261981499_3_alg».proof.Proof.Spec
import proofs.«407070_j89043261981499_3_alg».proof.Proof.Terms
import proofs.«407070_j89043261981499_3_alg».proof.Proof.Algebra
import proofs.«407070_j89043261981499_3_alg».proof.Proof.LibRowGatherScatter
import proofs.«407070_j89043261981499_3_alg».proof.Proof.RefRead
import Idealize.ShloMosaic.Lib.ValueIdx

noncomputable section

namespace Cert.Sage.Bridge

open Cert.ReferenceIdeal Cert.ReferenceIdeal.Gen Cert.ReferenceIdeal.Read Cert.ReferenceIdeal.RefRead
open Idealize.ShloMosaic Idealize.ShloMosaic.ValueIdx Cert.Lib.RowOps Cert.Sage

variable (x0 : (⟨S50000x128, .f32⟩ : BufTy).Contents (Elt Ideal)) (x1 : (⟨S2x800000, .i32⟩ : BufTy).Contents (Elt Ideal))
  (x2 : (⟨S128x256, .f32⟩ : BufTy).Contents (Elt Ideal)) (x3 : (⟨S256, .f32⟩ : BufTy).Contents (Elt Ideal))
  (x4 : (⟨S128x256, .f32⟩ : BufTy).Contents (Elt Ideal)) (x5 : (⟨S256x128, .f32⟩ : BufTy).Contents (Elt Ideal))
  (x6 : (⟨S128, .f32⟩ : BufTy).Contents (Elt Ideal)) (x7 : (⟨S256x128, .f32⟩ : BufTy).Contents (Elt Ideal))

/-- The floored degree of a node is a real number at least one. -/
theorem deg_real (n : Fin 50000) : ∃ d : ℝ, 1 ≤ d ∧ val_main_v19 (F := Ideal) x1 (ix1 n) = (d : EReal) := by
  rw [deg_apply]; exact count_max_one _

/-- The reciprocal degree is a real number. -/
theorem inv_isR (n : Fin 50000) : IsR (Cert.Sage.inv x1 n) := by
  obtain ⟨d, hd, hdeg⟩ := deg_real x1 n
  unfold Cert.Sage.inv; rw [hdeg]; exact div_one_isR hd

/-- A neighbour sum of real rows is real. -/
theorem nbr_isR (A : (⟨S50000x128, .f32⟩ : BufTy).Contents (Elt Ideal)) (hA : ∀ i, IsR (A i)) (n : Fin 50000) (q : Fin 128) :
    IsR (nbr x1 A (ix2 n q)) := by
  show IsR (val_main_v13 (F := Ideal) A x1 (ix2 n q))
  rw [msg1_apply]; exact IsR.sum _ _ fun e _ => hA _

/-- LAYER ONE: the kernel's hidden layer is the reference's. -/
theorem hidden_eq (n : Fin 50000) (k : Fin 256) :
    hidK x0 x1 x2 x3 x4 n k = val_main_v29 (F := Ideal) x0 x1 x2 x3 x4 (ix2 n k) := by
  obtain ⟨d, hd, hdeg⟩ := deg_real x1 n
  rw [hidden_apply]
  unfold hidK hid Cert.Sage.inv
  rw [hdeg]
  have hdiv : ∀ i : Fin 128, Ideal.div (val_main_v13 (F := Ideal) x0 x1 (ix2 n i)) (d : EReal)
      = val_main_v13 (F := Ideal) x0 x1 (ix2 n i) * Ideal.div 1 (d : EReal) := fun i => div_eq_mul_div_one hd _
  simp only [hdiv]

/-- The hidden layer is real when the inputs of layer one are. -/
theorem hidden_isR (h0 : ∀ i, IsR (x0 i)) (h2 : ∀ i, IsR (x2 i)) (h3 : ∀ i, IsR (x3 i)) (h4 : ∀ i, IsR (x4 i))
    (n : Fin 50000) (k : Fin 256) : IsR (val_main_v29 (F := Ideal) x0 x1 x2 x3 x4 (ix2 n k)) := by
  rw [← hidden_eq]
  unfold hidK hid
  exact IsR.max (IsR.add (IsR.add (IsR.sum _ _ fun i _ => IsR.mul (IsR.mul (nbr_isR x1 x0 h0 n i) (inv_isR x1 n)) (h2 _)) (h3 _))
    (IsR.sum _ _ fun i _ => IsR.mul (h0 _) (h4 _))) IsR.zero

/-- LAYER TWO: the kernel's node embeddings are the reference's. -/
theorem z_eq (h0 : ∀ i, IsR (x0 i)) (h2 : ∀ i, IsR (x2 i)) (h3 : ∀ i, IsR (x3 i)) (h4 : ∀ i, IsR (x4 i))
    (h5 : ∀ i, IsR (x5 i)) :
    zK x0 x1 x2 x3 x4 x5 x6 x7 = val_main_v54 (F := Ideal) x0 x1 x2 x3 x4 x5 x6 x7 := by
  funext i
  obtain ⟨n, q, rfl⟩ : ∃ (n : Fin 50000) (q : Fin 128), i = ix2 n q := ⟨i 0, i 1, eq_ix2 i⟩
  obtain ⟨d, hd, hdeg⟩ := deg_real x1 n
  rw [z_apply]
  show (nbr x1 (hwK x0 x1 x2 x3 x4 x5) (ix2 n q) * Cert.Sage.inv x1 n + x6 (ix1 q)) + hrK x0 x1 x2 x3 x4 x7 (ix2 n q) = _
  -- the node's own term
  have hown : hrK x0 x1 x2 x3 x4 x7 (ix2 n q) = ∑ k : Fin 256, val_main_v29 (F := Ideal) x0 x1 x2 x3 x4 (ix2 n k) * x7 (ix2 k q) := by
    show ∑ k : Fin 256, hidK x0 x1 x2 x3 x4 n k * x7 (ix2 k q) = _
    exact Finset.sum_congr rfl fun k _ => by rw [hidden_eq]
  -- the neighbour term: linearity of the finite sum over the in-neighbours
  have hnbr : nbr x1 (hwK x0 x1 x2 x3 x4 x5) (ix2 n q) * Cert.Sage.inv x1 n
      = ∑ k : Fin 256, Ideal.div (val_main_v39 (F := Ideal) x0 x1 x2 x3 x4 (ix2 n k)) (val_main_v19 (F := Ideal) x1 (ix1 n)) * x5 (ix2 k q) := by
    show val_main_v13 (F := Ideal) (hwK x0 x1 x2 x3 x4 x5) x1 (ix2 n q) * Cert.Sage.inv x1 n = _
    rw [msg1_apply]
    unfold Cert.Sage.inv
    rw [hdeg]
    have hrow : ∀ e : Fin 800000, hwK x0 x1 x2 x3 x4 x5 (ix2 (clampRow (N := 50000) (by decide) (src1 x1) e) q)
        = ∑ k : Fin 256, val_main_v29 (F := Ideal) x0 x1 x2 x3 x4 (ix2 (clampRow (N := 50000) (by decide) (src1 x1) e) k) * x5 (ix2 k q) := by
      intro e
      show ∑ k : Fin 256, hidK x0 x1 x2 x3 x4 (clampRow (N := 50000) (by decide) (src1 x1) e) k * x5 (ix2 k q) = _
      exact Finset.sum_congr rfl fun k _ => by rw [hidden_eq]
    rw [Finset.sum_congr rfl fun e _ => hrow e]
    rw [sum_rows_mul_inv (hits (dst1 x1) n)
      (fun e k => val_main_v29 (F := Ideal) x0 x1 x2 x3 x4 (ix2 (clampRow (N := 50000) (by decide) (src1 x1) e) k))
      (fun k => x5 (ix2 k q)) hd (fun e k => hidden_isR x0 x1 x2 x3 x4 h0 h2 h3 h4 _ k) (fun k => h5 _)]
    exact Finset.sum_congr rfl fun k _ => by rw [msg2_apply]
  rw [hown, hnbr]

end Cert.Sage.Bridge

end
-- ==== Proof.lean ====
/-
  A two-layer mean-aggregating graph network with a link decode, against its textbook reference.

  For a node `n` let `E(n)` be the edges ending at `n`, `d(n) = max(|E(n)|, 1)`, and `src e` the (clamped) source
  of edge `e`.  The reference computes
      h(n, ·) = max( ((Σ_{e ∈ E(n)} x(src e, ·)) / d(n)) · w1_l + b1 + x(n, ·) · w1_r , 0 )
      z(n, ·) = ((Σ_{e ∈ E(n)} h(src e, ·)) / d(n)) · w2_l + b2 + h(n, ·) · w2_r
  and decodes each edge as the logistic function of the inner product of `z` at its two ends.  The kernel keeps
  the reciprocal `1 / d(n)`, computes `h` in a first grid of row blocks with the averaged neighbour sum multiplied
  rather than divided, applies BOTH second-layer matrices there (`h · w2_l` and `h · w2_r`), takes the neighbour
  sum of `h · w2_l` afterwards, and adds the three terms of `z` in a second grid of row blocks; the decode is the
  reference's.  On the extended reals the two agree because `d(n)` is a real at least one (division by it is
  multiplication by its reciprocal, for every extended real) and because, the inputs being finite, every entry
  involved is a real number, where the finite neighbour sum commutes with the product by `w2_l`.

  The three frames: the two kernel programs run (terminate, no fault, arguments unchanged) by their generated
  frame certificates; the reference by its generated run.  The idealization rewrote nothing, so there is nothing
  to preserve.
-/
import proofs.«407070_j89043261981499_3_alg».proof.Defs
import proofs.«407070_j89043261981499_3_alg».proof.Proof.Gen.Kernel
import proofs.«407070_j89043261981499_3_alg».proof.Proof.Gen.Kernel.Frame
import proofs.«407070_j89043261981499_3_alg».proof.Proof.Gen.KernelIdeal
import proofs.«407070_j89043261981499_3_alg».proof.Proof.Gen.KernelIdeal.Frame
import proofs.«407070_j89043261981499_3_alg».proof.Proof.Gen.ReferenceIdeal
import proofs.«407070_j89043261981499_3_alg».proof.Proof.Gen.Pre_finite_inputs
import proofs.«407070_j89043261981499_3_alg».proof.Proof.RefFrame
import proofs.«407070_j89043261981499_3_alg».proof.Proof.KernelRun
import proofs.«407070_j89043261981499_3_alg».proof.Proof.KernelHost
import proofs.«407070_j89043261981499_3_alg».proof.Proof.Terms
import proofs.«407070_j89043261981499_3_alg».proof.Proof.Finite
import proofs.«407070_j89043261981499_3_alg».proof.Proof.Bridge
import Idealize.ShloMosaic.Adequacy
import Idealize.ShloMosaic.Init

noncomputable section

namespace Cert.Proof

open Idealize.ShloMosaic Idealize.SL.Sem

/-- The printed kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealization rewrote no operation. -/
theorem preserves : Cert.preserves_Kernel_KernelIdeal := trivial

/-- Both idealized programs end with the decode of the same node embeddings. -/
theorem algebraic : Cert.algebraic_KernelIdeal_ReferenceIdeal := by
  intro m ρ m' ρ' hpre hagree
  refine ⟨fun c => Cert.Sage.decode (m ((c.tc : Thread Cert.KernelIdeal.nD Cert.KernelIdeal.τ).loc Cert.KernelIdeal.main_arg1))
      (Cert.Sage.zK (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))), ?_, ?_⟩
  · exact (θ_run Cert.KernelIdeal.defs _ _).mono
      (fun r h c => ⟨(h c).1.trans (Cert.KernelIdeal.Host.result m ρ c), (h c).2⟩)
      (Cert.KernelIdeal.Run.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    obtain ⟨h0, h2, h3, h4, h5, h6, h7⟩ := Cert.Pre_finite_inputs.Finite.isR_of_pre _ _ _ _ _ _ _ _ (hpre c)
    rw [Cert.ReferenceIdeal.Read.val_main_v76_eq, e0, e1, e2, e3, e4, e5, e6, e7, Cert.Sage.ref_result,
      ← Cert.Sage.Bridge.z_eq _ _ _ _ _ _ _ _ h0 h2 h3 h4 h5]

theorem claim : Cert.Claim :=
  ⟨Cert.Kernel.Gen.facts, Cert.KernelIdeal.Gen.facts, Cert.ReferenceIdeal.Gen.facts, Cert.Pre_finite_inputs.Gen.facts,
    frame_k, frame_ki, Cert.Proof.RefFrame.frame_ri, preserves, algebraic⟩

end Cert.Proof

end
